-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S100000x1 : Shape := ⟨2, ![100000, 1]⟩
abbrev S1x2 : Shape := ⟨2, ![1, 2]⟩
abbrev S4000x1 : Shape := ⟨2, ![4000, 1]⟩

abbrev nBuf : Space → Nat
  | .hbm => 89
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x1, .i32⟩
  | .hbm, ⟨87, _⟩ => ⟨S1x2, .f32⟩
  | .hbm, ⟨88, _⟩ => ⟨S128x2, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x1, .i32⟩
  | .local _ .vmem, ⟨21, _⟩ => ⟨S4000x1, .i32⟩
  | .local _ .vmem, ⟨22, _⟩ => ⟨S4000x128, .f32⟩
  | .local _ .vmem, ⟨23, _⟩ => ⟨S4000x128, .f32⟩
  | .local _ .vmem, ⟨24, _⟩ => ⟨S128x2, .f32⟩
  | .local _ .vmem, ⟨25, _⟩ => ⟨S1x2, .f32⟩
  | .local _ .vmem, ⟨26, _⟩ => ⟨S128x2, .f32⟩
  | .local _ .vmem, ⟨27, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S100000_S100000x1 : S100000.ShapeCasts S100000x1
  shapeCasts_S2_S1x2 : S2.ShapeCasts S1x2
  shapeCasts_S128x128_S128x128 : S128x128.ShapeCasts S128x128
  iota_S4000x128_d1_w32 : S4000x128.Iotas .tc 32 [1]
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  natLt_1_32 : 1 < 32
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S4000x128_S128x128_0_0_1_1_n_n_wf : DotDims.WF S4000x128 S4000x128 S128x128 [0] [0] [1] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x1.size a ≤ S100000x1.size a
  hwx4_0 : ∀ i : grid4.Coords, EltTy.bits .i32 = 32 ∨ (Rect.block (s := S100000x1) S4000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x2.size a ≤ S128x2.size a
  hwx4_2 : ∀ i : grid4.Coords, EltTy.bits .f32 = 32 ∨ (Rect.block (s := S128x2) S128x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x2.size a ≤ S128x2.size a
  hwx4_4 : ∀ i : grid4.Coords, EltTy.bits .f32 = 32 ∨ (Rect.block (s := S128x2) S128x2.size (cc4_transform_4 i) (hinb4_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S4000x128_S128x128_0_0_1_1_n_n : DotDims S4000x128 S4000x128 S128x128 where
  lhsContracting := [0]
  rhsContracting := [0]
  lhsNonContracting := [1]
  rhsNonContracting := [1]
  lhsBatch := []
  rhsBatch := []
  wf := dot_S4000x128_S4000x128_S128x128_0_0_1_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S4000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S128x2.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x2 : Shape := ⟨2, ![1, 2]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128x128, .f32⟩
  | .hbm, ⟨97, _⟩ => ⟨S100000x1, .i32⟩
  | .hbm, ⟨98, _⟩ => ⟨S128x128, .f32⟩
  | .hbm, ⟨99, _⟩ => ⟨S128x2, .f32⟩
  | .hbm, ⟨100, _⟩ => ⟨S1x2, .f32⟩
  | .hbm, ⟨101, _⟩ => ⟨S128x2, .f32⟩
  | .hbm, ⟨102, _⟩ => ⟨S128x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  dot_S128x128_S128x2_S128x2_1_0_0_1_n_n_wf : DotDims.WF S128x128 S128x2 S128x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KB.Dats.lean ====
/-
  The proof data of the five kernel regions, each stated at a PARAMETER `V`: the TensorCore's buffer contents when the
  region is entered. Regions 0 and 2 are the dense projections (one whole-block store of a matrix product of the row
  tile with the weight matrix), regions 1 and 3 the bias-and-rectifier tiles, region 4 the pooling: a 128×128
  accumulator carried in scratch across the 25 row tiles, reset at the first, and the linear head stored at the last.
-/
import proofs.«421452_j36378372997643_1_alg».proof.Proof.Gen.Kernel.Launch
import proofs.«421452_j36378372997643_1_alg».proof.Proof.Gen.Kernel.Skeleton
import proofs.«421452_j36378372997643_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: blocks, the body's result, the proof data -/

/-- Window `w`'s block at point `t` of pipeline 0, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 4000×128 staging rectangle and the whole rectangle of the second operand. -/
abbrev r0_a : Rect S4000x128 := Rect.unit (s := S4000x128) ![0, 0] S4000x128.size inb_S4000x128_S4000x128_0_0
abbrev r0_b : Rect S128x128 := Rect.unit (s := S128x128) ![0, 0] S128x128.size inb_S128x128_S128x128_0_0

/-- What the body of pipeline 0 leaves in its output's staging buffer: its one whole-block store of the payload of the two loads. -/
def out0_2 (x0 : Vec F S4000x128 .f32) (x1 : Vec F S128x128 .f32) : Vec F S4000x128 .f32 :=
  View.canon [⟨r0_a, k0_pay1 (View.ld x0 r0_a) (View.ld x1 r0_b)⟩]

/-- The proof data of pipeline 0: arrays as entered; inputs left in place, the output at `out0_2` of the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: blocks, the body's result, the proof data -/

/-- Window `w`'s block at point `t` of pipeline 1, read off its array at the region-entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 4000×128 staging rectangle and the whole rectangle of the second operand. -/
abbrev r1_a : Rect S4000x128 := Rect.unit (s := S4000x128) ![0, 0] S4000x128.size inb_S4000x128_S4000x128_0_0
abbrev r1_b : Rect S1x128 := Rect.unit (s := S1x128) ![0, 0] S1x128.size inb_S1x128_S1x128_0_0

/-- What the body of pipeline 1 leaves in its output's staging buffer: its one whole-block store of the payload of the two loads. -/
def out1_2 (x0 : Vec F S4000x128 .f32) (x1 : Vec F S1x128 .f32) : Vec F S4000x128 .f32 :=
  View.canon [⟨r1_a, k1_pay1 (View.ld x0 r1_a) (View.ld x1 r1_b)⟩]

/-- The proof data of pipeline 1: arrays as entered; inputs left in place, the output at `out1_2` of the point's input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: blocks, the body's result, the proof data -/

/-- Window `w`'s block at point `t` of pipeline 2, read off its array at the region-entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 4000×128 staging rectangle and the whole rectangle of the second operand. -/
abbrev r2_a : Rect S4000x128 := Rect.unit (s := S4000x128) ![0, 0] S4000x128.size inb_S4000x128_S4000x128_0_0
abbrev r2_b : Rect S128x128 := Rect.unit (s := S128x128) ![0, 0] S128x128.size inb_S128x128_S128x128_0_0

/-- What the body of pipeline 2 leaves in its output's staging buffer: its one whole-block store of the payload of the two loads. -/
def out2_2 (x0 : Vec F S4000x128 .f32) (x1 : Vec F S128x128 .f32) : Vec F S4000x128 .f32 :=
  View.canon [⟨r2_a, k2_pay1 (View.ld x0 r2_a) (View.ld x1 r2_b)⟩]

/-- The proof data of pipeline 2: arrays as entered; inputs left in place, the output at `out2_2` of the point's input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Region 3: blocks, the body's result, the proof data -/

/-- Window `w`'s block at point `t` of pipeline 3, read off its array at the region-entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole 4000×128 staging rectangle and the whole rectangle of the second operand. -/
abbrev r3_a : Rect S4000x128 := Rect.unit (s := S4000x128) ![0, 0] S4000x128.size inb_S4000x128_S4000x128_0_0
abbrev r3_b : Rect S1x128 := Rect.unit (s := S1x128) ![0, 0] S1x128.size inb_S1x128_S1x128_0_0

/-- What the body of pipeline 3 leaves in its output's staging buffer: its one whole-block store of the payload of the two loads. -/
def out3_2 (x0 : Vec F S4000x128 .f32) (x1 : Vec F S1x128 .f32) : Vec F S4000x128 .f32 :=
  View.canon [⟨r3_a, k3_pay1 (View.ld x0 r3_a) (View.ld x1 r3_b)⟩]

/-- The proof data of pipeline 3: arrays as entered; inputs left in place, the output at `out3_2` of the point's input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-! ## Region 4 (pooling and the linear head): blocks, the carried accumulator, the proof data -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch accumulator as a whole memref. -/
abbrev scM4 : Memref sig .tc .vmem S128x128 .f32 := Memref.whole cc4_scratch0

/-- THE ACCUMULATION. What the scratch holds after the body at position `n`: the first point resets it to zero and adds
    its tile's contribution; every later point adds its tile's contribution to what the point before left. -/
def sAt4 (c : Dev nD) : (n : ℕ) → n < cfg4.N → Vec F S128x128 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (sAt4 c n (Nat.lt_of_succ_lt hn))

theorem sAt4_zero (c : Dev nD) (hn : 0 < cfg4.N) :
    sAt4 V c 0 hn = k4_pay2 (iblk4 V c 0 ⟨0, hn⟩) (iblk4 V c 1 ⟨0, hn⟩) (k4_pay1 (F := F)) := rfl
theorem sAt4_succ (c : Dev nD) (n : ℕ) (hn : n + 1 < cfg4.N) :
    sAt4 V c (n + 1) hn = k4_pay2 (iblk4 V c 0 ⟨n + 1, hn⟩) (iblk4 V c 1 ⟨n + 1, hn⟩) (sAt4 V c n (Nat.lt_of_succ_lt hn)) := rfl

/-- The scoped buffers of the program other than the accumulator (the staging buffers of all five regions are scoped to
    the whole program; region 4's windows stage some, the rest ride along untouched). -/
def rest4 (c : Dev nD) : sProp 𝕄 :=
  Pipeline.scopedRestBut (Ix := Unit) (Name := ℕ) (U := UR sig nD τ) (Lvl := ℕ) (Val := Elt F) spec4 c [cc4_scratch0]

/-- The region invariant before position `n`: before the first point the class's; afterwards the scratch at what the
    point before left, and the generator register at some state. -/
def PhiS4 (c : Dev nD) : (n : ℕ) → n ≤ cfg4.N → sProp 𝕄
  | 0, _ => Pipeline.ΦA spec4 c
  | n + 1, hn => iprop(iprop(owns (c : Thread nD τ) scM4 fullShare (sAt4 V c n hn) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare (sAt4 V c n hn) ∗ rest4 (F := F) c) ∗ (∃ r, prngReg c r)) := rfl
theorem PhiS4_pos (c : Dev nD) (n : ℕ) (h : n ≤ cfg4.N) (hz : n ≠ 0) :
    PhiS4 V c n h = iprop(iprop(owns (c : Thread nD τ) scM4 fullShare (sAt4 V c (n - 1) (by omega)) ∗ rest4 (F := F) c) ∗ (∃ r, prngReg c r)) := by
  cases n with
  | zero => exact absurd rfl hz
  | succ n => rfl

/-- The proof data of pipeline 4: inputs left in place; the output's buffer at the head applied to the accumulator
    (what the last point stores; at the other points the window is idle and this is not consulted). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (sAt4 V c t.val t.isLt) (iblk4 V c 2 t) (iblk4 V c 3 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay3 (sAt4 V c t.val t.isLt) (iblk4 V c 2 t) (iblk4 V c 3 t) := by dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]

end Regions

end Cert.Kernel.Fr

end
-- ==== Proof.KB.Chain.lean ====
/-
  The TensorCore's buffer contents at every boundary between @main's eleven items (six stretches of host operations, five
  kernel regions): a fold from the launch memory — a host stretch applies its operations, a region leaves each of its
  arrays at what its write-backs fold to and every other buffer as entered.
-/
import proofs.«421452_j36378372997643_1_alg».proof.Proof.KB.Dats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- At region 2's exit: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
/-- At region 4's exit: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- Every pipeline's proof data, each at its region's entry contents. -/
abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V10 m ρ) c

end Cert.Kernel.Fr

end
-- ==== Proof.KB.Body0.lean ====
/-
  The body obligation of kernel region 0: at every grid point the two input windows' staging buffers hold their
  blocks (the second operand's block index never moves, so the block fetched at the first point is the block of
  every point), the body loads both, and its one whole-block store leaves the output's staging buffer at the payload
  of the two loads.
-/
import proofs.«421452_j36378372997643_1_alg».proof.Proof.KB.Dats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body0
variable (V : (c : Dev nD) → (b : Ref sig .tc) → Buf (Elt F) ((c : Thread nD τ).loc b))

/-! ## The input windows' staging buffers hold their blocks -/

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the second operand, fetched at the first point only): unfetched, its block index has not moved,
    so its staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one store is of the whole staging rectangle, so it covers the buffer. -/
theorem cover0_2 (p0 : Vec F S4000x128 .f32) (y : S4000x128.Idx) :
    ∃ pc ∈ ([⟨r0_a, p0⟩] : List (View.Piece (Elt F) S4000x128 .f32)), y ∈ pc.1.set :=
  View.cover_of_tiled [⟨r0_a, p0⟩] S4000x128.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords)
    (arg1 : Memref sig .tc .vmem S4000x128 .f32) (harg1 : arg1.IsWhole)
    (arg2 : Memref sig .tc .vmem S128x128 .f32) (harg2 : arg2.IsWhole)
    (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Body0

end Cert.Kernel.Fr

end
-- ==== Proof.KB.Body1.lean ====
/-
  The body obligation of kernel region 1: at every grid point the two input windows' staging buffers hold their
  blocks (the second operand's block index never moves, so the block fetched at the first point is the block of
  every point), the body loads both, and its one whole-block store leaves the output's staging buffer at the payload
  of the two loads.
-/
import proofs.«421452_j36378372997643_1_alg».proof.Proof.KB.Dats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body1
variable (V : (c : Dev nD) → (b : Ref sig .tc) → Buf (Elt F) ((c : Thread nD τ).loc b))

/-! ## The input windows' staging buffers hold their blocks -/

/-- Input window 0's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the second operand, fetched at the first point only): unfetched, its block index has not moved,
    so its staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one store is of the whole staging rectangle, so it covers the buffer. -/
theorem cover1_2 (p0 : Vec F S4000x128 .f32) (y : S4000x128.Idx) :
    ∃ pc ∈ ([⟨r1_a, p0⟩] : List (View.Piece (Elt F) S4000x128 .f32)), y ∈ pc.1.set :=
  View.cover_of_tiled [⟨r1_a, p0⟩] S4000x128.size (by rfl) y

/-! ## The body's triple -/

set_option maxHeartbeats 1000000 in
/-- The kernel body on whole staging memrefs, the inputs' at contents `x0`, `x1` and the output's at anything, runs to
    the continuation holding the inputs' as they were and the output's at `out1_2 x0 x1`. -/
theorem sound_kernel1 (c : Dev nD) (E : Set ℕ) (i : grid1.Coords)
    (arg1 : Memref sig .tc .vmem S4000x128 .f32) (harg1 : arg1.IsWhole)
    (arg2 : Memref sig .tc .vmem S1x128 .f32) (harg2 : arg2.IsWhole)
    (arg3 : Memref sig .tc .vmem S4000x128 .f32) (harg3 : arg3.IsWhole)
    (x0 : Vec F S4000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Body1

end Cert.Kernel.Fr

end
-- ==== Proof.KB.Body2.lean ====
/-
  The body obligation of kernel region 2: at every grid point the two input windows' staging buffers hold their
  blocks (the second operand's block index never moves, so the block fetched at the first point is the block of
  every point), the body loads both, and its one whole-block store leaves the output's staging buffer at the payload
  of the two loads.
-/
import proofs.«421452_j36378372997643_1_alg».proof.Proof.KB.Dats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body2
variable (V : (c : Dev nD) → (b : Ref sig .tc) → Buf (Elt F) ((c : Thread nD τ).loc b))

/-! ## The input windows' staging buffers hold their blocks -/

/-- Input window 0's current staging buffer holds its block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the second operand, fetched at the first point only): unfetched, its block index has not moved,
    so its staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The one store is of the whole staging rectangle, so it covers the buffer. -/
theorem cover2_2 (p0 : Vec F S4000x128 .f32) (y : S4000x128.Idx) :
    ∃ pc ∈ ([⟨r2_a, p0⟩] : List (View.Piece (Elt F) S4000x128 .f32)), y ∈ pc.1.set :=
  View.cover_of_tiled [⟨r2_a, p0⟩] S4000x128.size (by rfl) y

/-! ## The body's triple -/

set_option maxHeartbeats 1000000 in
/-- The kernel body on whole staging memrefs, the inputs' at contents `x0`, `x1` and the output's at anything, runs to
    the continuation holding the inputs' as they were and the output's at `out2_2 x0 x1`. -/
theorem sound_kernel2 (c : Dev nD) (E : Set ℕ) (i : grid2.Coords)
    (arg1 : Memref sig .tc .vmem S4000x128 .f32) (harg1 : arg1.IsWhole)
    (arg2 : Memref sig .tc .vmem S128x128 .f32) (harg2 : arg2.IsWhole)
    (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Body2

end Cert.Kernel.Fr

end
-- ==== Proof.KB.Body3.lean ====
/-
  The body obligation of kernel region 3: at every grid point the two input windows' staging buffers hold their
  blocks (the second operand's block index never moves, so the block fetched at the first point is the block of
  every point), the body loads both, and its one whole-block store leaves the output's staging buffer at the payload
  of the two loads.
-/
import proofs.«421452_j36378372997643_1_alg».proof.Proof.KB.Dats

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body3
variable (V : (c : Dev nD) → (b : Ref sig .tc) → Buf (Elt F) ((c : Thread nD τ).loc b))

/-! ## The input windows' staging buffers hold their blocks -/

/-- Input window 0's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the second operand, fetched at the first point only): unfetched, its block index has not moved,
    so its staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The one store is of the whole staging rectangle, so it covers the buffer. -/
theorem cover3_2 (p0 : Vec F S4000x128 .f32) (y : S4000x128.Idx) :
    ∃ pc ∈ ([⟨r3_a, p0⟩] : List (View.Piece (Elt F) S4000x128 .f32)), y ∈ pc.1.set :=
  View.cover_of_tiled [⟨r3_a, p0⟩] S4000x128.size (by rfl) y

/-! ## The body's triple -/

set_option maxHeartbeats 1000000 in
/-- The kernel body on whole staging memrefs, the inputs' at contents `x0`, `x1` and the output's at anything, runs to
    the continuation holding the inputs' as they were and the output's at `out3_2 x0 x1`. -/
theorem sound_kernel3 (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S4000x128 .f32) (harg3 : arg3.IsWhole)
    (x0 : Vec F S4000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The body obligation, at a generic point -/

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Body3

end Cert.Kernel.Fr

end
-- ==== Proof.KB.Run4A.lean ====
/-
  Region 4, the pooling kernel: what the three cases of its two conditionals share (the conditions in closed form over
  the 25 grid points, where the output window is idle, the staging memrefs), and the whole-body run at the FIRST point:
  the accumulator is reset to zero, the tile's contribution added, the head not stored.
-/
import proofs.«421452_j36378372997643_1_alg».proof.Proof.KB.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional resets the accumulator: taken at the first grid point only. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second conditional stores the linear head: taken at the last grid point only. -/
abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Where the head is not stored the output window is idle and its block is not written back. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last point it is live. -/
theorem liveAt4_4 : ∀ t : Fin cfg4.N, cond4_1 (grid4.coords t) → cfg4.idle 4 (grid4.coords t) = false := by decide +kernel

/-! ## The staging memrefs -/

abbrev ms4_0 (t : Fin cfg4.N) : Memref sig .tc .vmem S4000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x2 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x2 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x2 .f32 := win4_4.stage (cfg4.slots t 4)
abbrev hs4_4 (t : Fin cfg4.N) : (ms4_4 t).IsWhole := hstage4_4 ((cfg4.slots t 4).cast nbuf4_4)
/-- The accumulator and one staging buffer of the output as views: contents are stated through them. -/
abbrev VS4 : View sig .tc .vmem S128x128 .f32 := scM4.view
abbrev VO4 : View sig .tc .vmem S128x2 .f32 := (Memref.whole cc4_stg4_0 : Memref sig .tc .vmem S128x2 .f32).view

/-- The zero offsets of a whole-buffer rectangle. -/
theorem hz2 : (![0, 0] : Fin 2 → Nat) = fun _ => 0 := funext fun a => by fin_cases a <;> rfl

/-! ## The run at the first point -/

set_option maxHeartbeats 1000000 in
/-- The body at a point where the reset is taken and the head is not stored: the inputs' buffers are left as they
    were, the idle output's buffer is handed back untouched, and the accumulator, found at anything, ends with the
    pieces its two stores wrote (the zero block, then the update read back over it). -/
noncomputable def kernelRun4_A (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : cond4_0 i) (hc1 : ¬cond4_1 i)
    (x0 : Vec F S4000x1 .i32) (x1 : Vec F S4000x128 .f32) (x2 : Vec F S128x2 .f32) (x3 : Vec F S1x2 .f32) :
    Σ' (L4 : List (View.Piece (Elt F) S128x2 .f32)), { LS0 : List (View.Piece (Elt F) S128x128 .f32) //
      ∀ (xi4 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6) K } := by
  refine ⟨[], ?_, fun xi4 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Fr

end
-- ==== Proof.KB.Run4B.lean ====
/-
  Region 4, the pooling kernel: the whole-body run at a MIDDLE point (neither the first nor the last): the tile's
  contribution is added to the accumulator the point before left; nothing else is stored.
-/
import proofs.«421452_j36378372997643_1_alg».proof.Proof.KB.Run4A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither conditional is taken: the inputs' buffers are left as they were, the idle
    output's buffer is handed back untouched, and the accumulator, found at `xs`, ends with the piece its one store wrote. -/
noncomputable def kernelRun4_B (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : ¬cond4_1 i)
    (x0 : Vec F S4000x1 .i32) (x1 : Vec F S4000x128 .f32) (x2 : Vec F S128x2 .f32) (x3 : Vec F S1x2 .f32) (xs : Vec F S128x128 .f32) :
    Σ' (L4 : List (View.Piece (Elt F) S128x2 .f32)), { LS0 : List (View.Piece (Elt F) S128x128 .f32) //
      ∀ (xi4 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6) K } := by
  refine ⟨[], ?_, fun xi4 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Fr

end
-- ==== Proof.KB.Run4C.lean ====
/-
  Region 4, the pooling kernel: the whole-body run at the LAST point: the tile's contribution is added to the
  accumulator the point before left, and the linear head of the accumulator is stored into the output's buffer.
-/
import proofs.«421452_j36378372997643_1_alg».proof.Proof.KB.Run4B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the reset is not taken and the head is stored: the inputs' buffers are left as they
    were, the accumulator, found at `xs`, ends with the piece its one store wrote, and the output's buffer, found at
    anything, with the piece the head's store wrote. -/
noncomputable def kernelRun4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) :
    Σ' (L4 : List (View.Piece (Elt F) S128x2 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6) K } := by
  refine ⟨?_, ?_, fun E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2
    obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Fr

end
-- ==== Proof.KB.Body4.lean ====
/-
  Region 4, the pooling kernel: THE BODY OBLIGATION. What each of the three cases' stores leave, read back as values
  (the accumulator after the point is the tile's contribution added to what it held, the zero block at the first point;
  the output's buffer at the last point is the linear head of the updated accumulator), and with them the body's triple
  at a generic point against the explicit proof data: the accumulator is carried through the invariant, the output's
  buffer is handed back untouched wherever the head is not stored.
-/
import proofs.«421452_j36378372997643_1_alg».proof.Proof.KB.Run4C
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first point leaves in the accumulator -/

/-- The two stores of the first point (the zero block, then the update) tile the accumulator. -/
theorem scover4_A (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : cond4_0 i) (hc1 : ¬cond4_1 i)
    (x0 : Vec F S4000x1 .i32) (x1 : Vec F S4000x128 .f32) (x2 : Vec F S128x2 .f32) (x3 : Vec F S1x2 .f32) (y : S128x128.Idx) :
    ∃ pc ∈ (kernelRun4_A c i arg1 harg1 arg2 harg2 arg3 harg3 arg4 harg4 arg5 harg5 arg6 harg6 hc0 hc1 x0 x1 x2 x3).2.1, y ∈ pc.1.set :=
  View.cover_of_tiledL (kernelRun4_A c i arg1 harg1 arg2 harg2 arg3 harg3 arg4 harg4 arg5 harg5 arg6 harg6 hc0 hc1 x0 x1 x2 x3).2.1 S128x128.size (by sl_kernel_rfl) y

/-- Read back, they are the tile's contribution added to the zero block: the update's load reads what the reset stored. -/
theorem sval4_A (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : cond4_0 i) (hc1 : ¬cond4_1 i)
    (x0 : Vec F S4000x1 .i32) (x1 : Vec F S4000x128 .f32) (x2 : Vec F S128x2 .f32) (x3 : Vec F S1x2 .f32) (v : View sig .tc .vmem S128x128 .f32) (f : v.ty.Contents (Elt F)) :
    v.read (Elt F) (v.writes (Elt F) f (kernelRun4_A c i arg1 harg1 arg2 harg2 arg3 harg3 arg4 harg4 arg5 harg5 arg6 harg6 hc0 hc1 x0 x1 x2 x3).2.1) = k4_pay2 x0 x1 (k4_pay1 (F := F)) := by
  rw [View.read_writes_eq_canon _ _ _ (scover4_A c i arg1 harg1 arg2 harg2 arg3 harg3 arg4 harg4 arg5 harg5 arg6 harg6 hc0 hc1 x0 x1 x2 x3)]
  unfold kernelRun4_A
  dsimp only
  sl_unfold_words
  rw [View.canon_cons_unit_zero (S := S128x128) hz2, View.readCov_unit_zero (S := S128x128) _ hz2]
  simp only [View.readAt_eq_ld, harg1.read_unread, harg2.read_unread, View.ld_unit_zero (S := S4000x1) hz2, View.ld_unit_zero (S := S4000x128) hz2]

/-! ## What a middle point leaves in the accumulator -/

/-- The one store of a middle point tiles the accumulator. -/
theorem scover4_B (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : ¬cond4_1 i)
    (x0 : Vec F S4000x1 .i32) (x1 : Vec F S4000x128 .f32) (x2 : Vec F S128x2 .f32) (x3 : Vec F S1x2 .f32) (xs : Vec F S128x128 .f32) (y : S128x128.Idx) :
    ∃ pc ∈ (kernelRun4_B c i arg1 harg1 arg2 harg2 arg3 harg3 arg4 harg4 arg5 harg5 arg6 harg6 hc0 hc1 x0 x1 x2 x3 xs).2.1, y ∈ pc.1.set :=
  View.cover_of_tiledL (kernelRun4_B c i arg1 harg1 arg2 harg2 arg3 harg3 arg4 harg4 arg5 harg5 arg6 harg6 hc0 hc1 x0 x1 x2 x3 xs).2.1 S128x128.size (by sl_kernel_rfl) y

/-- Read back, it is the tile's contribution added to what the accumulator held. -/
theorem sval4_B (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : ¬cond4_1 i)
    (x0 : Vec F S4000x1 .i32) (x1 : Vec F S4000x128 .f32) (x2 : Vec F S128x2 .f32) (x3 : Vec F S1x2 .f32) (xs : Vec F S128x128 .f32) (v : View sig .tc .vmem S128x128 .f32) (f : v.ty.Contents (Elt F)) :
    v.read (Elt F) (v.writes (Elt F) f (kernelRun4_B c i arg1 harg1 arg2 harg2 arg3 harg3 arg4 harg4 arg5 harg5 arg6 harg6 hc0 hc1 x0 x1 x2 x3 xs).2.1) = k4_pay2 x0 x1 xs := by
  rw [View.read_writes_eq_canon _ _ _ (scover4_B c i arg1 harg1 arg2 harg2 arg3 harg3 arg4 harg4 arg5 harg5 arg6 harg6 hc0 hc1 x0 x1 x2 x3 xs)]
  unfold kernelRun4_B
  dsimp only
  sl_unfold_words
  rw [View.canon_unit_zero (S := S128x128) hz2]
  simp only [View.readAt_eq_ld, harg1.read_unread, harg2.read_unread, harg6.read_unread, View.ld_unit_zero (S := S4000x1) hz2, View.ld_unit_zero (S := S4000x128) hz2, View.ld_unit_zero (S := S128x128) hz2]

/-! ## What the last point leaves in the accumulator and in the output's buffer -/

/-- The one store of the last point into the accumulator tiles it. -/
theorem scover4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) (y : S128x128.Idx) :
    ∃ pc ∈ (kernelRun4_C c i arg1 harg1 arg2 harg2 arg3 harg3 arg4 harg4 arg5 harg5 arg6 harg6 hc0 hc1 x0 x1 x2 x3 xs).2.1, y ∈ pc.1.set :=
  View.cover_of_tiledL (kernelRun4_C c i arg1 harg1 arg2 harg2 arg3 harg3 arg4 harg4 arg5 harg5 arg6 harg6 hc0 hc1 x0 x1 x2 x3 xs).2.1 S128x128.size (by sl_kernel_rfl) y

/-- The head's one store tiles the output's buffer. -/
theorem cover4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) (y : S128x2.Idx) :
    ∃ pc ∈ (kernelRun4_C c i arg1 harg1 arg2 harg2 arg3 harg3 arg4 harg4 arg5 harg5 arg6 harg6 hc0 hc1 x0 x1 x2 x3 xs).1, y ∈ pc.1.set :=
  View.cover_of_tiledL (kernelRun4_C c i arg1 harg1 arg2 harg2 arg3 harg3 arg4 harg4 arg5 harg5 arg6 harg6 hc0 hc1 x0 x1 x2 x3 xs).1 S128x2.size (by sl_kernel_rfl) y

/-- The accumulator read back: the tile's contribution added to what it held. -/
theorem sval4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) (v : View sig .tc .vmem S128x128 .f32) (f : v.ty.Contents (Elt F)) :
    v.read (Elt F) (v.writes (Elt F) f (kernelRun4_C c i arg1 harg1 arg2 harg2 arg3 harg3 arg4 harg4 arg5 harg5 arg6 harg6 hc0 hc1 x0 x1 x2 x3 xs).2.1) = k4_pay2 x0 x1 xs := by
  rw [View.read_writes_eq_canon _ _ _ (scover4_C c i arg1 harg1 arg2 harg2 arg3 harg3 arg4 harg4 arg5 harg5 arg6 harg6 hc0 hc1 x0 x1 x2 x3 xs)]
  unfold kernelRun4_C
  dsimp only
  sl_unfold_words
  rw [View.canon_unit_zero (S := S128x128) hz2]
  simp only [View.readAt_eq_ld, harg1.read_unread, harg2.read_unread, harg6.read_unread, View.ld_unit_zero (S := S4000x1) hz2, View.ld_unit_zero (S := S4000x128) hz2, View.ld_unit_zero (S := S128x128) hz2]

/-- The output's buffer read back: the linear head of the UPDATED accumulator (the head's load reads what the update
    stored) with the head's weights and bias. -/
theorem oval4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) (v : View sig .tc .vmem S128x2 .f32) (f : v.ty.Contents (Elt F)) :
    v.read (Elt F) (v.writes (Elt F) f (kernelRun4_C c i arg1 harg1 arg2 harg2 arg3 harg3 arg4 harg4 arg5 harg5 arg6 harg6 hc0 hc1 x0 x1 x2 x3 xs).1) = k4_pay3 (k4_pay2 x0 x1 xs) x2 x3 := by
  rw [View.read_writes_eq_canon _ _ _ (cover4_C c i arg1 harg1 arg2 harg2 arg3 harg3 arg4 harg4 arg5 harg5 arg6 harg6 hc0 hc1 x0 x1 x2 x3 xs)]
  unfold kernelRun4_C
  dsimp only
  sl_unfold_words
  rw [View.canon_unit_zero (S := S128x2) hz2, View.readCov_unit_zero (S := S128x128) _ hz2]
  simp only [View.readAt_eq_ld, harg1.read_unread, harg2.read_unread, harg3.read_unread, harg4.read_unread, harg6.read_unread, View.ld_unit_zero (S := S4000x1) hz2, View.ld_unit_zero (S := S4000x128) hz2, View.ld_unit_zero (S := S128x128) hz2, View.ld_unit_zero (S := S128x2) hz2, View.ld_unit_zero (S := S1x2) hz2]

section Body4
variable (V : (c : Dev nD) → (b : Ref sig .tc) → Buf (Elt F) ((c : Thread nD τ).loc b))

/-! ## The invariant the launch hands the region -/

/-- The class's invariant with the accumulator split off the core's other scoped buffers: the accumulator owned at some
    contents, the rest carried unopened, the generator register at some state. -/
theorem PhiA4_eq (c : Dev nD) :
    (Pipeline.ΦA spec4 c : sProp 𝕄)
      = iprop(iprop((∃ d, owns (c : Thread nD τ) scM4 fullShare d) ∗ rest4 (F := F) c) ∗ (∃ r, prngReg c r)) := by
  unfold Pipeline.ΦA rest4
  rw [Pipeline.scopedRest_split_of_list spec4 c [cc4_scratch0] (by decide) (by decide)]
  simp only [scM4, owns_whole]; try rfl

/-! ## The accumulation, at a point -/

/-- At the first point the accumulator ends at the tile's contribution added to the zero block. -/
theorem sAt4_first (c : Dev nD) (t : Fin cfg4.N) (hz : t.val = 0) :
    sAt4 V c t.val t.isLt = k4_pay2 (iblk4 V c 0 t) (iblk4 V c 1 t) (k4_pay1 (F := F)) := by
  obtain ⟨n, hn⟩ := t
  cases n with
  | zero => rfl
  | succ n => exact absurd hz (Nat.succ_ne_zero n)

/-- At a later point, at the tile's contribution added to what the point before left. -/
theorem sAt4_pos (c : Dev nD) (t : Fin cfg4.N) (hz : t.val ≠ 0) :
    sAt4 V c t.val t.isLt = k4_pay2 (iblk4 V c 0 t) (iblk4 V c 1 t)
      (sAt4 V c (t.val - 1) (Nat.lt_of_le_of_lt (Nat.sub_le _ _) t.isLt)) := by
  obtain ⟨n, hn⟩ := t
  cases n with
  | zero => exact absurd rfl hz
  | succ n => rfl

/-! ## The input windows' staging buffers hold their blocks -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_0 (c : Dev nD) (t : Fin cfg4.N) (d) : (dat4 V c).before 0 t d = iblk4 V c 0 t :=
  before4_0_of V (dat4 V c) (A_eq4 V c 0) (after4_0 V c) t d

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_1 (c : Dev nD) (t : Fin cfg4.N) (d) : (dat4 V c).before 1 t d = iblk4 V c 1 t :=
  before4_1_of V (dat4 V c) (A_eq4 V c 1) (after4_1 V c) t d

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_2 (c : Dev nD) (t : Fin cfg4.N) (d) : (dat4 V c).before 2 t d = iblk4 V c 2 t :=
  before4_2_of V (dat4 V c) (A_eq4 V c 2) (after4_2 V c) t d

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point: the inputs' memrefs hold their blocks; the closed forms say which of the three cases the
    point is in; the invariant hands the body the accumulator at what the point before left (at anything at the first
    point) and takes it back at this point's value; where the head is not stored the output's buffer is handed back
    untouched; the other scoped buffers, the generator register and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 4 t (idleAt4_4 t hc1) (noFlush4_4 t hc1)]
    rw [sAt4_first V c t h0]
    rw [PhiS4_castSucc V c t, PhiS4_zero V c _ _ h0, PhiA4_eq]
    iintro ⟨⟨⟨HS0, HR⟩, Hg⟩, Ho, ⟨%d0, H0⟩, ⟨%d1, H1⟩, ⟨%d2, H2⟩, ⟨%d3, H3⟩, ⟨%d4, H4⟩⟩
    iapply ((kernelRun4_A c (grid4.coords t) _ _ _ _ _ _ _ _ _ _ _ _ hc0 hc1 (iblk4 V c 0 t) (iblk4 V c 1 t) (iblk4 V c 2 t) (iblk4 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 HR Hg]
    · isplitl [HS0 HR]
      · isplitl [HS0]
        · unfold owns; iexists _; isplitr
          swap; · iexact HS0
          ipureintro; exact sval4_A c _ _ _ _ _ _ _ _ _ _ _ _ _ hc0 hc1 _ _ _ _ _ _
        iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond4_0 (grid4.coords t) := fun h => h0 ((hcond4_0 t).mp h)
    rw [sAt4_pos V c t h0]
    rw [PhiS4_castSucc V c t, PhiS4_pos V c _ _ h0]
    by_cases h1 : t.val = 24
    · have hc1 : cond4_1 (grid4.coords t) := (hcond4_1 t).mpr h1
      rw [show (dat4 V c).leavesExact 4 t = owns (c : Thread nD τ) (ms4_4 t) fullShare ((dat4 V c).after 4 t) from by
        unfold Dat.leavesExact; rw [liveAt4_4 t hc1], after4_4, sAt4_pos V c t h0]
      iintro ⟨⟨⟨HS0, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ hc0 hc1 (iblk4 V c 0 t) (iblk4 V c 1 t) (iblk4 V c 2 t) (iblk4 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact sval4_C c _ _ _ _ _ _ _ _ _ _ _ _ _ hc0 hc1 _ _ _ _ _ _ _
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact oval4_C c _ _ _ _ _ _ _ _ _ _ _ _ _ hc0 hc1 _ _ _ _ _ _ _
    · have hc1 : ¬cond4_1 (grid4.coords t) := fun h => h1 ((hcond4_1 t).mp h)
      rw [Dat.leavesExact_idle (dat4 V c) 4 t (idleAt4_4 t hc1) (noFlush4_4 t hc1)]
      iintro ⟨⟨⟨HS0, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ hc0 hc1 (iblk4 V c 0 t) (iblk4 V c 1 t) (iblk4 V c 2 t) (iblk4 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact sval4_B c _ _ _ _ _ _ _ _ _ _ _ _ _ hc0 hc1 _ _ _ _ _ _ _
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Body4

end Cert.Kernel.Fr

end
-- ==== Proof.KB.Run.lean ====
/-
  The run of @main: eleven items in order — six stretches of host operations and five kernel regions — each entered from the
  buffer contents the one before left; every weakly fair execution terminates, nothing faulting, with every unscoped
  buffer at the last boundary's contents. The frame claim (the argument arrays end as launched) and the result's value are
  both read off that final valuation.
-/
import proofs.«421452_j36378372997643_1_alg».proof.Proof.KB.Chain
import proofs.«421452_j36378372997643_1_alg».proof.Proof.KB.Body0
import proofs.«421452_j36378372997643_1_alg».proof.Proof.KB.Body1
import proofs.«421452_j36378372997643_1_alg».proof.Proof.KB.Body2
import proofs.«421452_j36378372997643_1_alg».proof.Proof.KB.Body3
import proofs.«421452_j36378372997643_1_alg».proof.Proof.KB.Body4

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

set_option backward.isDefEq.respectTransparency.types false in
/-- Region 0 over the thread state: entered from every unscoped buffer at `W3`, left at `W4`; its arrays split out
    of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`; its arrays split out
    of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`; its arrays split out
    of the unscoped buffers and put back at the exit contents; the generator register into the invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`; its arrays split out
    of the unscoped buffers and put back at the exit contents; the generator register into the invariant and out;
    nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W10`, left at `W11`; its arrays split out
    of the unscoped buffers and put back at the exit contents; the generator register into the invariant and out;
    nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V10 m ρ) c
    unfold Pipeline.ΦA at h
    rw [show (pdats m ρ 4 c).Φ 0 = (dat4 (V10 m ρ) c).Φ 0 from rfl]
    iintro ⟨Hp, -, Hr⟩
    iapply h
    isplitl [Hr]; · iexact Hr
    iexact Hp
  hout c := by
    have h := hout4 (V10 m ρ) c
    unfold Pipeline.ΦA at h
    rw [Pipeline.ownSems0_none, show (pdats m ρ 4 c).Φ (Fin.last _) = (dat4 (V10 m ρ) c).Φ (Fin.last cfg4.N) from rfl]
    refine h.trans ?_
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eleven segments in order. -/
abbrev segs : List (Pipeline.Seg (pcfgs (F := F)) adm (pdats m ρ) () defs₀ 𝒱₀ L lv) :=
  [ .host (hseg hostOps0 hostOps0_sub fresh0 (W0 m ρ)),
    .host (hseg hostOps0_1 hostOps0_1_sub fresh0_1 (W1 m ρ)),
    .host (hseg hostOps0_2 hostOps0_2_sub fresh0_2 (W2 m ρ)),
    .region (reg0 m ρ),
    .host (hseg hostOps1 hostOps1_sub fresh1 (W4 m ρ)),
    .region (reg1 m ρ),
    .region (reg2 m ρ),
    .host (hseg hostOps3 hostOps3_sub fresh3 (W7 m ρ)),
    .region (reg3 m ρ),
    .host (hseg hostOps4 hostOps4_sub fresh4 (W9 m ρ)),
    .region (reg4 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer holds what the last boundary's valuation `W11` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Fr

end
-- ==== Proof.KB.Args.lean ====
/-
  What the eleven items leave unchanged: a stretch of host operations changes only the buffers its operations write, a
  region only its output arrays; so each of the nine argument arrays holds its launch contents at the last boundary
  (an argument a region reads through an input window is handed back as it was entered).
-/
import proofs.«421452_j36378372997643_1_alg».proof.Proof.KB.Chain
import proofs.«421452_j36378372997643_1_alg».proof.Proof.Gen.Kernel.Regions

set_option maxRecDepth 16384

noncomputable section

namespace Cert.Kernel.Fr

open Cert.Kernel
open Cert.Kernel.Gen hiding V0 V1 V2 V3 V4 V5 V6 V7 V8 V9 V10 V11 adm segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## A host stretch keeps every buffer none of its operations writes -/
theorem W1_keep (c : Dev nD) (r : Ref sig .tc) (h : r ∉ hostOps0_W) : W1 m ρ c r = W0 m ρ c r :=
  StableHlo.after_of_writes_sub hostOps0 _ hostOps0_writes h
theorem W2_keep (c : Dev nD) (r : Ref sig .tc) (h : r ∉ hostOps0_1_W) : W2 m ρ c r = W1 m ρ c r :=
  StableHlo.after_of_writes_sub hostOps0_1 _ hostOps0_1_writes h
theorem W3_keep (c : Dev nD) (r : Ref sig .tc) (h : r ∉ hostOps0_2_W) : W3 m ρ c r = W2 m ρ c r :=
  StableHlo.after_of_writes_sub hostOps0_2 _ hostOps0_2_writes h
theorem W5_keep (c : Dev nD) (r : Ref sig .tc) (h : r ∉ hostOps1_W) : W5 m ρ c r = W4 m ρ c r :=
  StableHlo.after_of_writes_sub hostOps1 _ hostOps1_writes h
theorem W8_keep (c : Dev nD) (r : Ref sig .tc) (h : r ∉ hostOps3_W) : W8 m ρ c r = W7 m ρ c r :=
  StableHlo.after_of_writes_sub hostOps3 _ hostOps3_writes h
theorem W10_keep (c : Dev nD) (r : Ref sig .tc) (h : r ∉ hostOps4_W) : W10 m ρ c r = W9 m ρ c r :=
  StableHlo.after_of_writes_sub hostOps4 _ hostOps4_writes h

/-! ## A region hands an input window's array back as entered -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
theorem W7_in (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))
theorem W9_in (c : Dev nD) (w : Fin cfg3.W) (hw : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))
theorem W11_in (c : Dev nD) (w : Fin cfg4.W) (hw : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w hw _).trans (A_eq4 (V10 m ρ) c w))

/-! ## The arguments at the last boundary -/
theorem W11_main_arg0 (c : Dev nD) : W11 m ρ c (Proc.devRef .tc main_arg0) = m ((c : Thread nD τ).loc main_arg0) :=
  (W11_of_ne m ρ c main_arg0 (by decide)).trans <| (W10_keep m ρ c main_arg0 (by decide)).trans <| (W9_of_ne m ρ c main_arg0 (by decide)).trans <| (W8_keep m ρ c main_arg0 (by decide)).trans <| (W7_of_ne m ρ c main_arg0 (by decide)).trans <| (W6_of_ne m ρ c main_arg0 (by decide)).trans <| (W5_keep m ρ c main_arg0 (by decide)).trans <| (W4_in m ρ c 0 rfl).trans <| (W3_keep m ρ c main_arg0 (by decide)).trans <| (W2_keep m ρ c main_arg0 (by decide)).trans <| (W1_keep m ρ c main_arg0 (by decide)).trans rfl
theorem W11_main_arg1 (c : Dev nD) : W11 m ρ c (Proc.devRef .tc main_arg1) = m ((c : Thread nD τ).loc main_arg1) :=
  (W11_of_ne m ρ c main_arg1 (by decide)).trans <| (W10_keep m ρ c main_arg1 (by decide)).trans <| (W9_of_ne m ρ c main_arg1 (by decide)).trans <| (W8_keep m ρ c main_arg1 (by decide)).trans <| (W7_of_ne m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_keep m ρ c main_arg1 (by decide)).trans <| (W1_keep m ρ c main_arg1 (by decide)).trans rfl
theorem W11_main_arg2 (c : Dev nD) : W11 m ρ c (Proc.devRef .tc main_arg2) = m ((c : Thread nD τ).loc main_arg2) :=
  (W11_of_ne m ρ c main_arg2 (by decide)).trans <| (W10_keep m ρ c main_arg2 (by decide)).trans <| (W9_of_ne m ρ c main_arg2 (by decide)).trans <| (W8_keep m ρ c main_arg2 (by decide)).trans <| (W7_of_ne m ρ c main_arg2 (by decide)).trans <| (W6_of_ne m ρ c main_arg2 (by decide)).trans <| (W5_keep m ρ c main_arg2 (by decide)).trans <| (W4_of_ne m ρ c main_arg2 (by decide)).trans <| (W3_keep m ρ c main_arg2 (by decide)).trans <| (W2_keep m ρ c main_arg2 (by decide)).trans <| (W1_keep m ρ c main_arg2 (by decide)).trans rfl
theorem W11_main_arg3 (c : Dev nD) : W11 m ρ c (Proc.devRef .tc main_arg3) = m ((c : Thread nD τ).loc main_arg3) :=
  (W11_of_ne m ρ c main_arg3 (by decide)).trans <| (W10_keep m ρ c main_arg3 (by decide)).trans <| (W9_of_ne m ρ c main_arg3 (by decide)).trans <| (W8_keep m ρ c main_arg3 (by decide)).trans <| (W7_of_ne m ρ c main_arg3 (by decide)).trans <| (W6_of_ne m ρ c main_arg3 (by decide)).trans <| (W5_keep m ρ c main_arg3 (by decide)).trans <| (W4_in m ρ c 1 rfl).trans <| (W3_keep m ρ c main_arg3 (by decide)).trans <| (W2_keep m ρ c main_arg3 (by decide)).trans <| (W1_keep m ρ c main_arg3 (by decide)).trans rfl
theorem W11_main_arg4 (c : Dev nD) : W11 m ρ c (Proc.devRef .tc main_arg4) = m ((c : Thread nD τ).loc main_arg4) :=
  (W11_of_ne m ρ c main_arg4 (by decide)).trans <| (W10_keep m ρ c main_arg4 (by decide)).trans <| (W9_of_ne m ρ c main_arg4 (by decide)).trans <| (W8_keep m ρ c main_arg4 (by decide)).trans <| (W7_of_ne m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_keep m ρ c main_arg4 (by decide)).trans <| (W1_keep m ρ c main_arg4 (by decide)).trans rfl
theorem W11_main_arg5 (c : Dev nD) : W11 m ρ c (Proc.devRef .tc main_arg5) = m ((c : Thread nD τ).loc main_arg5) :=
  (W11_of_ne m ρ c main_arg5 (by decide)).trans <| (W10_keep m ρ c main_arg5 (by decide)).trans <| (W9_of_ne m ρ c main_arg5 (by decide)).trans <| (W8_keep m ρ c main_arg5 (by decide)).trans <| (W7_in m ρ c 1 rfl).trans <| (W6_of_ne m ρ c main_arg5 (by decide)).trans <| (W5_keep m ρ c main_arg5 (by decide)).trans <| (W4_of_ne m ρ c main_arg5 (by decide)).trans <| (W3_keep m ρ c main_arg5 (by decide)).trans <| (W2_keep m ρ c main_arg5 (by decide)).trans <| (W1_keep m ρ c main_arg5 (by decide)).trans rfl
theorem W11_main_arg6 (c : Dev nD) : W11 m ρ c (Proc.devRef .tc main_arg6) = m ((c : Thread nD τ).loc main_arg6) :=
  (W11_of_ne m ρ c main_arg6 (by decide)).trans <| (W10_keep m ρ c main_arg6 (by decide)).trans <| (W9_of_ne m ρ c main_arg6 (by decide)).trans <| (W8_keep m ρ c main_arg6 (by decide)).trans <| (W7_of_ne m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_keep m ρ c main_arg6 (by decide)).trans <| (W1_keep m ρ c main_arg6 (by decide)).trans rfl
theorem W11_main_arg7 (c : Dev nD) : W11 m ρ c (Proc.devRef .tc main_arg7) = m ((c : Thread nD τ).loc main_arg7) :=
  (W11_in m ρ c 2 rfl).trans <| (W10_keep m ρ c main_arg7 (by decide)).trans <| (W9_of_ne m ρ c main_arg7 (by decide)).trans <| (W8_keep m ρ c main_arg7 (by decide)).trans <| (W7_of_ne m ρ c main_arg7 (by decide)).trans <| (W6_of_ne m ρ c main_arg7 (by decide)).trans <| (W5_keep m ρ c main_arg7 (by decide)).trans <| (W4_of_ne m ρ c main_arg7 (by decide)).trans <| (W3_keep m ρ c main_arg7 (by decide)).trans <| (W2_keep m ρ c main_arg7 (by decide)).trans <| (W1_keep m ρ c main_arg7 (by decide)).trans rfl
theorem W11_main_arg8 (c : Dev nD) : W11 m ρ c (Proc.devRef .tc main_arg8) = m ((c : Thread nD τ).loc main_arg8) :=
  (W11_of_ne m ρ c main_arg8 (by decide)).trans <| (W10_keep m ρ c main_arg8 (by decide)).trans <| (W9_of_ne m ρ c main_arg8 (by decide)).trans <| (W8_keep m ρ c main_arg8 (by decide)).trans <| (W7_of_ne m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_keep m ρ c main_arg8 (by decide)).trans <| (W1_keep m ρ c main_arg8 (by decide)).trans rfl

end Cert.Kernel.Fr

end
-- ==== Proof.KI.Dats.lean ====
/-
  The proof data of the five kernel regions, each stated at a PARAMETER `V`: the TensorCore's buffer contents when the
  region is entered. Regions 0 and 2 are the dense projections (one whole-block store of a matrix product of the row
  tile with the weight matrix), regions 1 and 3 the bias-and-rectifier tiles, region 4 the pooling: a 128×128
  accumulator carried in scratch across the 25 row tiles, reset at the first, and the linear head stored at the last.
-/
import proofs.«421452_j36378372997643_1_alg».proof.Proof.Gen.KernelIdeal.Launch
import proofs.«421452_j36378372997643_1_alg».proof.Proof.Gen.KernelIdeal.Skeleton
import proofs.«421452_j36378372997643_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: blocks, the body's result, the proof data -/

/-- Window `w`'s block at point `t` of pipeline 0, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 4000×128 staging rectangle and the whole rectangle of the second operand. -/
abbrev r0_a : Rect S4000x128 := Rect.unit (s := S4000x128) ![0, 0] S4000x128.size inb_S4000x128_S4000x128_0_0
abbrev r0_b : Rect S128x128 := Rect.unit (s := S128x128) ![0, 0] S128x128.size inb_S128x128_S128x128_0_0

/-- What the body of pipeline 0 leaves in its output's staging buffer: its one whole-block store of the payload of the two loads. -/
def out0_2 (x0 : Vec F S4000x128 .f32) (x1 : Vec F S128x128 .f32) : Vec F S4000x128 .f32 :=
  View.canon [⟨r0_a, k0_pay1 (View.ld x0 r0_a) (View.ld x1 r0_b)⟩]

/-- The proof data of pipeline 0: arrays as entered; inputs left in place, the output at `out0_2` of the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: blocks, the body's result, the proof data -/

/-- Window `w`'s block at point `t` of pipeline 1, read off its array at the region-entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 4000×128 staging rectangle and the whole rectangle of the second operand. -/
abbrev r1_a : Rect S4000x128 := Rect.unit (s := S4000x128) ![0, 0] S4000x128.size inb_S4000x128_S4000x128_0_0
abbrev r1_b : Rect S1x128 := Rect.unit (s := S1x128) ![0, 0] S1x128.size inb_S1x128_S1x128_0_0

/-- What the body of pipeline 1 leaves in its output's staging buffer: its one whole-block store of the payload of the two loads. -/
def out1_2 (x0 : Vec F S4000x128 .f32) (x1 : Vec F S1x128 .f32) : Vec F S4000x128 .f32 :=
  View.canon [⟨r1_a, k1_pay1 (View.ld x0 r1_a) (View.ld x1 r1_b)⟩]

/-- The proof data of pipeline 1: arrays as entered; inputs left in place, the output at `out1_2` of the point's input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: blocks, the body's result, the proof data -/

/-- Window `w`'s block at point `t` of pipeline 2, read off its array at the region-entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 4000×128 staging rectangle and the whole rectangle of the second operand. -/
abbrev r2_a : Rect S4000x128 := Rect.unit (s := S4000x128) ![0, 0] S4000x128.size inb_S4000x128_S4000x128_0_0
abbrev r2_b : Rect S128x128 := Rect.unit (s := S128x128) ![0, 0] S128x128.size inb_S128x128_S128x128_0_0

/-- What the body of pipeline 2 leaves in its output's staging buffer: its one whole-block store of the payload of the two loads. -/
def out2_2 (x0 : Vec F S4000x128 .f32) (x1 : Vec F S128x128 .f32) : Vec F S4000x128 .f32 :=
  View.canon [⟨r2_a, k2_pay1 (View.ld x0 r2_a) (View.ld x1 r2_b)⟩]

/-- The proof data of pipeline 2: arrays as entered; inputs left in place, the output at `out2_2` of the point's input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Region 3: blocks, the body's result, the proof data -/

/-- Window `w`'s block at point `t` of pipeline 3, read off its array at the region-entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole 4000×128 staging rectangle and the whole rectangle of the second operand. -/
abbrev r3_a : Rect S4000x128 := Rect.unit (s := S4000x128) ![0, 0] S4000x128.size inb_S4000x128_S4000x128_0_0
abbrev r3_b : Rect S1x128 := Rect.unit (s := S1x128) ![0, 0] S1x128.size inb_S1x128_S1x128_0_0

/-- What the body of pipeline 3 leaves in its output's staging buffer: its one whole-block store of the payload of the two loads. -/
def out3_2 (x0 : Vec F S4000x128 .f32) (x1 : Vec F S1x128 .f32) : Vec F S4000x128 .f32 :=
  View.canon [⟨r3_a, k3_pay1 (View.ld x0 r3_a) (View.ld x1 r3_b)⟩]

/-- The proof data of pipeline 3: arrays as entered; inputs left in place, the output at `out3_2` of the point's input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-! ## Region 4 (pooling and the linear head): blocks, the carried accumulator, the proof data -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch accumulator as a whole memref. -/
abbrev scM4 : Memref sig .tc .vmem S128x128 .f32 := Memref.whole cc4_scratch0

/-- THE ACCUMULATION. What the scratch holds after the body at position `n`: the first point resets it to zero and adds
    its tile's contribution; every later point adds its tile's contribution to what the point before left. -/
def sAt4 (c : Dev nD) : (n : ℕ) → n < cfg4.N → Vec F S128x128 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (sAt4 c n (Nat.lt_of_succ_lt hn))

theorem sAt4_zero (c : Dev nD) (hn : 0 < cfg4.N) :
    sAt4 V c 0 hn = k4_pay2 (iblk4 V c 0 ⟨0, hn⟩) (iblk4 V c 1 ⟨0, hn⟩) (k4_pay1 (F := F)) := rfl
theorem sAt4_succ (c : Dev nD) (n : ℕ) (hn : n + 1 < cfg4.N) :
    sAt4 V c (n + 1) hn = k4_pay2 (iblk4 V c 0 ⟨n + 1, hn⟩) (iblk4 V c 1 ⟨n + 1, hn⟩) (sAt4 V c n (Nat.lt_of_succ_lt hn)) := rfl

/-- The scoped buffers of the program other than the accumulator (the staging buffers of all five regions are scoped to
    the whole program; region 4's windows stage some, the rest ride along untouched). -/
def rest4 (c : Dev nD) : sProp 𝕄 :=
  Pipeline.scopedRestBut (Ix := Unit) (Name := ℕ) (U := UR sig nD τ) (Lvl := ℕ) (Val := Elt F) spec4 c [cc4_scratch0]

/-- The region invariant before position `n`: before the first point the class's; afterwards the scratch at what the
    point before left, and the generator register at some state. -/
def PhiS4 (c : Dev nD) : (n : ℕ) → n ≤ cfg4.N → sProp 𝕄
  | 0, _ => Pipeline.ΦA spec4 c
  | n + 1, hn => iprop(iprop(owns (c : Thread nD τ) scM4 fullShare (sAt4 V c n hn) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare (sAt4 V c n hn) ∗ rest4 (F := F) c) ∗ (∃ r, prngReg c r)) := rfl
theorem PhiS4_pos (c : Dev nD) (n : ℕ) (h : n ≤ cfg4.N) (hz : n ≠ 0) :
    PhiS4 V c n h = iprop(iprop(owns (c : Thread nD τ) scM4 fullShare (sAt4 V c (n - 1) (by omega)) ∗ rest4 (F := F) c) ∗ (∃ r, prngReg c r)) := by
  cases n with
  | zero => exact absurd rfl hz
  | succ n => rfl

/-- The proof data of pipeline 4: inputs left in place; the output's buffer at the head applied to the accumulator
    (what the last point stores; at the other points the window is idle and this is not consulted). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (sAt4 V c t.val t.isLt) (iblk4 V c 2 t) (iblk4 V c 3 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay3 (sAt4 V c t.val t.isLt) (iblk4 V c 2 t) (iblk4 V c 3 t) := by dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]

end Regions

end Cert.KernelIdeal.Fr

end
-- ==== Proof.KI.Chain.lean ====
/-
  The TensorCore's buffer contents at every boundary between @main's eleven items (six stretches of host operations, five
  kernel regions): a fold from the launch memory — a host stretch applies its operations, a region leaves each of its
  arrays at what its write-backs fold to and every other buffer as entered.
-/
import proofs.«421452_j36378372997643_1_alg».proof.Proof.KI.Dats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- At region 2's exit: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
/-- At region 4's exit: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- Every pipeline's proof data, each at its region's entry contents. -/
abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V10 m ρ) c

end Cert.KernelIdeal.Fr

end
-- ==== Proof.KI.Body0.lean ====
/-
  The body obligation of kernel region 0: at every grid point the two input windows' staging buffers hold their
  blocks (the second operand's block index never moves, so the block fetched at the first point is the block of
  every point), the body loads both, and its one whole-block store leaves the output's staging buffer at the payload
  of the two loads.
-/
import proofs.«421452_j36378372997643_1_alg».proof.Proof.KI.Dats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body0
variable (V : (c : Dev nD) → (b : Ref sig .tc) → Buf (Elt F) ((c : Thread nD τ).loc b))

/-! ## The input windows' staging buffers hold their blocks -/

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the second operand, fetched at the first point only): unfetched, its block index has not moved,
    so its staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one store is of the whole staging rectangle, so it covers the buffer. -/
theorem cover0_2 (p0 : Vec F S4000x128 .f32) (y : S4000x128.Idx) :
    ∃ pc ∈ ([⟨r0_a, p0⟩] : List (View.Piece (Elt F) S4000x128 .f32)), y ∈ pc.1.set :=
  View.cover_of_tiled [⟨r0_a, p0⟩] S4000x128.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords)
    (arg1 : Memref sig .tc .vmem S4000x128 .f32) (harg1 : arg1.IsWhole)
    (arg2 : Memref sig .tc .vmem S128x128 .f32) (harg2 : arg2.IsWhole)
    (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Body0

end Cert.KernelIdeal.Fr

end
-- ==== Proof.KI.Body1.lean ====
/-
  The body obligation of kernel region 1: at every grid point the two input windows' staging buffers hold their
  blocks (the second operand's block index never moves, so the block fetched at the first point is the block of
  every point), the body loads both, and its one whole-block store leaves the output's staging buffer at the payload
  of the two loads.
-/
import proofs.«421452_j36378372997643_1_alg».proof.Proof.KI.Dats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body1
variable (V : (c : Dev nD) → (b : Ref sig .tc) → Buf (Elt F) ((c : Thread nD τ).loc b))

/-! ## The input windows' staging buffers hold their blocks -/

/-- Input window 0's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the second operand, fetched at the first point only): unfetched, its block index has not moved,
    so its staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The one store is of the whole staging rectangle, so it covers the buffer. -/
theorem cover1_2 (p0 : Vec F S4000x128 .f32) (y : S4000x128.Idx) :
    ∃ pc ∈ ([⟨r1_a, p0⟩] : List (View.Piece (Elt F) S4000x128 .f32)), y ∈ pc.1.set :=
  View.cover_of_tiled [⟨r1_a, p0⟩] S4000x128.size (by rfl) y

/-! ## The body's triple -/

set_option maxHeartbeats 1000000 in
/-- The kernel body on whole staging memrefs, the inputs' at contents `x0`, `x1` and the output's at anything, runs to
    the continuation holding the inputs' as they were and the output's at `out1_2 x0 x1`. -/
theorem sound_kernel1 (c : Dev nD) (E : Set ℕ) (i : grid1.Coords)
    (arg1 : Memref sig .tc .vmem S4000x128 .f32) (harg1 : arg1.IsWhole)
    (arg2 : Memref sig .tc .vmem S1x128 .f32) (harg2 : arg2.IsWhole)
    (arg3 : Memref sig .tc .vmem S4000x128 .f32) (harg3 : arg3.IsWhole)
    (x0 : Vec F S4000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Body1

end Cert.KernelIdeal.Fr

end
-- ==== Proof.KI.Body2.lean ====
/-
  The body obligation of kernel region 2: at every grid point the two input windows' staging buffers hold their
  blocks (the second operand's block index never moves, so the block fetched at the first point is the block of
  every point), the body loads both, and its one whole-block store leaves the output's staging buffer at the payload
  of the two loads.
-/
import proofs.«421452_j36378372997643_1_alg».proof.Proof.KI.Dats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body2
variable (V : (c : Dev nD) → (b : Ref sig .tc) → Buf (Elt F) ((c : Thread nD τ).loc b))

/-! ## The input windows' staging buffers hold their blocks -/

/-- Input window 0's current staging buffer holds its block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the second operand, fetched at the first point only): unfetched, its block index has not moved,
    so its staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The one store is of the whole staging rectangle, so it covers the buffer. -/
theorem cover2_2 (p0 : Vec F S4000x128 .f32) (y : S4000x128.Idx) :
    ∃ pc ∈ ([⟨r2_a, p0⟩] : List (View.Piece (Elt F) S4000x128 .f32)), y ∈ pc.1.set :=
  View.cover_of_tiled [⟨r2_a, p0⟩] S4000x128.size (by rfl) y

/-! ## The body's triple -/

set_option maxHeartbeats 1000000 in
/-- The kernel body on whole staging memrefs, the inputs' at contents `x0`, `x1` and the output's at anything, runs to
    the continuation holding the inputs' as they were and the output's at `out2_2 x0 x1`. -/
theorem sound_kernel2 (c : Dev nD) (E : Set ℕ) (i : grid2.Coords)
    (arg1 : Memref sig .tc .vmem S4000x128 .f32) (harg1 : arg1.IsWhole)
    (arg2 : Memref sig .tc .vmem S128x128 .f32) (harg2 : arg2.IsWhole)
    (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Body2

end Cert.KernelIdeal.Fr

end
-- ==== Proof.KI.Body3.lean ====
/-
  The body obligation of kernel region 3: at every grid point the two input windows' staging buffers hold their
  blocks (the second operand's block index never moves, so the block fetched at the first point is the block of
  every point), the body loads both, and its one whole-block store leaves the output's staging buffer at the payload
  of the two loads.
-/
import proofs.«421452_j36378372997643_1_alg».proof.Proof.KI.Dats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body3
variable (V : (c : Dev nD) → (b : Ref sig .tc) → Buf (Elt F) ((c : Thread nD τ).loc b))

/-! ## The input windows' staging buffers hold their blocks -/

/-- Input window 0's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the second operand, fetched at the first point only): unfetched, its block index has not moved,
    so its staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The one store is of the whole staging rectangle, so it covers the buffer. -/
theorem cover3_2 (p0 : Vec F S4000x128 .f32) (y : S4000x128.Idx) :
    ∃ pc ∈ ([⟨r3_a, p0⟩] : List (View.Piece (Elt F) S4000x128 .f32)), y ∈ pc.1.set :=
  View.cover_of_tiled [⟨r3_a, p0⟩] S4000x128.size (by rfl) y

/-! ## The body's triple -/

set_option maxHeartbeats 1000000 in
/-- The kernel body on whole staging memrefs, the inputs' at contents `x0`, `x1` and the output's at anything, runs to
    the continuation holding the inputs' as they were and the output's at `out3_2 x0 x1`. -/
theorem sound_kernel3 (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S4000x128 .f32) (harg3 : arg3.IsWhole)
    (x0 : Vec F S4000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The body obligation, at a generic point -/

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Body3

end Cert.KernelIdeal.Fr

end
-- ==== Proof.KI.Run4A.lean ====
/-
  Region 4, the pooling kernel: what the three cases of its two conditionals share (the conditions in closed form over
  the 25 grid points, where the output window is idle, the staging memrefs), and the whole-body run at the FIRST point:
  the accumulator is reset to zero, the tile's contribution added, the head not stored.
-/
import proofs.«421452_j36378372997643_1_alg».proof.Proof.KI.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional resets the accumulator: taken at the first grid point only. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second conditional stores the linear head: taken at the last grid point only. -/
abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Where the head is not stored the output window is idle and its block is not written back. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last point it is live. -/
theorem liveAt4_4 : ∀ t : Fin cfg4.N, cond4_1 (grid4.coords t) → cfg4.idle 4 (grid4.coords t) = false := by decide +kernel

/-! ## The staging memrefs -/

abbrev ms4_0 (t : Fin cfg4.N) : Memref sig .tc .vmem S4000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x2 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x2 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x2 .f32 := win4_4.stage (cfg4.slots t 4)
abbrev hs4_4 (t : Fin cfg4.N) : (ms4_4 t).IsWhole := hstage4_4 ((cfg4.slots t 4).cast nbuf4_4)
/-- The accumulator and one staging buffer of the output as views: contents are stated through them. -/
abbrev VS4 : View sig .tc .vmem S128x128 .f32 := scM4.view
abbrev VO4 : View sig .tc .vmem S128x2 .f32 := (Memref.whole cc4_stg4_0 : Memref sig .tc .vmem S128x2 .f32).view

/-- The zero offsets of a whole-buffer rectangle. -/
theorem hz2 : (![0, 0] : Fin 2 → Nat) = fun _ => 0 := funext fun a => by fin_cases a <;> rfl

/-! ## The run at the first point -/

set_option maxHeartbeats 1000000 in
/-- The body at a point where the reset is taken and the head is not stored: the inputs' buffers are left as they
    were, the idle output's buffer is handed back untouched, and the accumulator, found at anything, ends with the
    pieces its two stores wrote (the zero block, then the update read back over it). -/
noncomputable def kernelRun4_A (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : cond4_0 i) (hc1 : ¬cond4_1 i)
    (x0 : Vec F S4000x1 .i32) (x1 : Vec F S4000x128 .f32) (x2 : Vec F S128x2 .f32) (x3 : Vec F S1x2 .f32) :
    Σ' (L4 : List (View.Piece (Elt F) S128x2 .f32)), { LS0 : List (View.Piece (Elt F) S128x128 .f32) //
      ∀ (xi4 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6) K } := by
  refine ⟨[], ?_, fun xi4 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Fr

end
-- ==== Proof.KI.Run4B.lean ====
/-
  Region 4, the pooling kernel: the whole-body run at a MIDDLE point (neither the first nor the last): the tile's
  contribution is added to the accumulator the point before left; nothing else is stored.
-/
import proofs.«421452_j36378372997643_1_alg».proof.Proof.KI.Run4A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither conditional is taken: the inputs' buffers are left as they were, the idle
    output's buffer is handed back untouched, and the accumulator, found at `xs`, ends with the piece its one store wrote. -/
noncomputable def kernelRun4_B (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : ¬cond4_1 i)
    (x0 : Vec F S4000x1 .i32) (x1 : Vec F S4000x128 .f32) (x2 : Vec F S128x2 .f32) (x3 : Vec F S1x2 .f32) (xs : Vec F S128x128 .f32) :
    Σ' (L4 : List (View.Piece (Elt F) S128x2 .f32)), { LS0 : List (View.Piece (Elt F) S128x128 .f32) //
      ∀ (xi4 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6) K } := by
  refine ⟨[], ?_, fun xi4 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Fr

end
-- ==== Proof.KI.Run4C.lean ====
/-
  Region 4, the pooling kernel: the whole-body run at the LAST point: the tile's contribution is added to the
  accumulator the point before left, and the linear head of the accumulator is stored into the output's buffer.
-/
import proofs.«421452_j36378372997643_1_alg».proof.Proof.KI.Run4B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the reset is not taken and the head is stored: the inputs' buffers are left as they
    were, the accumulator, found at `xs`, ends with the piece its one store wrote, and the output's buffer, found at
    anything, with the piece the head's store wrote. -/
noncomputable def kernelRun4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) :
    Σ' (L4 : List (View.Piece (Elt F) S128x2 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6) K } := by
  refine ⟨?_, ?_, fun E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2
    obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Fr

end
-- ==== Proof.KI.Body4.lean ====
/-
  Region 4, the pooling kernel: THE BODY OBLIGATION. What each of the three cases' stores leave, read back as values
  (the accumulator after the point is the tile's contribution added to what it held, the zero block at the first point;
  the output's buffer at the last point is the linear head of the updated accumulator), and with them the body's triple
  at a generic point against the explicit proof data: the accumulator is carried through the invariant, the output's
  buffer is handed back untouched wherever the head is not stored.
-/
import proofs.«421452_j36378372997643_1_alg».proof.Proof.KI.Run4C
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first point leaves in the accumulator -/

/-- The two stores of the first point (the zero block, then the update) tile the accumulator. -/
theorem scover4_A (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : cond4_0 i) (hc1 : ¬cond4_1 i)
    (x0 : Vec F S4000x1 .i32) (x1 : Vec F S4000x128 .f32) (x2 : Vec F S128x2 .f32) (x3 : Vec F S1x2 .f32) (y : S128x128.Idx) :
    ∃ pc ∈ (kernelRun4_A c i arg1 harg1 arg2 harg2 arg3 harg3 arg4 harg4 arg5 harg5 arg6 harg6 hc0 hc1 x0 x1 x2 x3).2.1, y ∈ pc.1.set :=
  View.cover_of_tiledL (kernelRun4_A c i arg1 harg1 arg2 harg2 arg3 harg3 arg4 harg4 arg5 harg5 arg6 harg6 hc0 hc1 x0 x1 x2 x3).2.1 S128x128.size (by sl_kernel_rfl) y

/-- Read back, they are the tile's contribution added to the zero block: the update's load reads what the reset stored. -/
theorem sval4_A (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : cond4_0 i) (hc1 : ¬cond4_1 i)
    (x0 : Vec F S4000x1 .i32) (x1 : Vec F S4000x128 .f32) (x2 : Vec F S128x2 .f32) (x3 : Vec F S1x2 .f32) (v : View sig .tc .vmem S128x128 .f32) (f : v.ty.Contents (Elt F)) :
    v.read (Elt F) (v.writes (Elt F) f (kernelRun4_A c i arg1 harg1 arg2 harg2 arg3 harg3 arg4 harg4 arg5 harg5 arg6 harg6 hc0 hc1 x0 x1 x2 x3).2.1) = k4_pay2 x0 x1 (k4_pay1 (F := F)) := by
  rw [View.read_writes_eq_canon _ _ _ (scover4_A c i arg1 harg1 arg2 harg2 arg3 harg3 arg4 harg4 arg5 harg5 arg6 harg6 hc0 hc1 x0 x1 x2 x3)]
  unfold kernelRun4_A
  dsimp only
  sl_unfold_words
  rw [View.canon_cons_unit_zero (S := S128x128) hz2, View.readCov_unit_zero (S := S128x128) _ hz2]
  simp only [View.readAt_eq_ld, harg1.read_unread, harg2.read_unread, View.ld_unit_zero (S := S4000x1) hz2, View.ld_unit_zero (S := S4000x128) hz2]

/-! ## What a middle point leaves in the accumulator -/

/-- The one store of a middle point tiles the accumulator. -/
theorem scover4_B (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : ¬cond4_1 i)
    (x0 : Vec F S4000x1 .i32) (x1 : Vec F S4000x128 .f32) (x2 : Vec F S128x2 .f32) (x3 : Vec F S1x2 .f32) (xs : Vec F S128x128 .f32) (y : S128x128.Idx) :
    ∃ pc ∈ (kernelRun4_B c i arg1 harg1 arg2 harg2 arg3 harg3 arg4 harg4 arg5 harg5 arg6 harg6 hc0 hc1 x0 x1 x2 x3 xs).2.1, y ∈ pc.1.set :=
  View.cover_of_tiledL (kernelRun4_B c i arg1 harg1 arg2 harg2 arg3 harg3 arg4 harg4 arg5 harg5 arg6 harg6 hc0 hc1 x0 x1 x2 x3 xs).2.1 S128x128.size (by sl_kernel_rfl) y

/-- Read back, it is the tile's contribution added to what the accumulator held. -/
theorem sval4_B (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : ¬cond4_1 i)
    (x0 : Vec F S4000x1 .i32) (x1 : Vec F S4000x128 .f32) (x2 : Vec F S128x2 .f32) (x3 : Vec F S1x2 .f32) (xs : Vec F S128x128 .f32) (v : View sig .tc .vmem S128x128 .f32) (f : v.ty.Contents (Elt F)) :
    v.read (Elt F) (v.writes (Elt F) f (kernelRun4_B c i arg1 harg1 arg2 harg2 arg3 harg3 arg4 harg4 arg5 harg5 arg6 harg6 hc0 hc1 x0 x1 x2 x3 xs).2.1) = k4_pay2 x0 x1 xs := by
  rw [View.read_writes_eq_canon _ _ _ (scover4_B c i arg1 harg1 arg2 harg2 arg3 harg3 arg4 harg4 arg5 harg5 arg6 harg6 hc0 hc1 x0 x1 x2 x3 xs)]
  unfold kernelRun4_B
  dsimp only
  sl_unfold_words
  rw [View.canon_unit_zero (S := S128x128) hz2]
  simp only [View.readAt_eq_ld, harg1.read_unread, harg2.read_unread, harg6.read_unread, View.ld_unit_zero (S := S4000x1) hz2, View.ld_unit_zero (S := S4000x128) hz2, View.ld_unit_zero (S := S128x128) hz2]

/-! ## What the last point leaves in the accumulator and in the output's buffer -/

/-- The one store of the last point into the accumulator tiles it. -/
theorem scover4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) (y : S128x128.Idx) :
    ∃ pc ∈ (kernelRun4_C c i arg1 harg1 arg2 harg2 arg3 harg3 arg4 harg4 arg5 harg5 arg6 harg6 hc0 hc1 x0 x1 x2 x3 xs).2.1, y ∈ pc.1.set :=
  View.cover_of_tiledL (kernelRun4_C c i arg1 harg1 arg2 harg2 arg3 harg3 arg4 harg4 arg5 harg5 arg6 harg6 hc0 hc1 x0 x1 x2 x3 xs).2.1 S128x128.size (by sl_kernel_rfl) y

/-- The head's one store tiles the output's buffer. -/
theorem cover4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) (y : S128x2.Idx) :
    ∃ pc ∈ (kernelRun4_C c i arg1 harg1 arg2 harg2 arg3 harg3 arg4 harg4 arg5 harg5 arg6 harg6 hc0 hc1 x0 x1 x2 x3 xs).1, y ∈ pc.1.set :=
  View.cover_of_tiledL (kernelRun4_C c i arg1 harg1 arg2 harg2 arg3 harg3 arg4 harg4 arg5 harg5 arg6 harg6 hc0 hc1 x0 x1 x2 x3 xs).1 S128x2.size (by sl_kernel_rfl) y

/-- The accumulator read back: the tile's contribution added to what it held. -/
theorem sval4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) (v : View sig .tc .vmem S128x128 .f32) (f : v.ty.Contents (Elt F)) :
    v.read (Elt F) (v.writes (Elt F) f (kernelRun4_C c i arg1 harg1 arg2 harg2 arg3 harg3 arg4 harg4 arg5 harg5 arg6 harg6 hc0 hc1 x0 x1 x2 x3 xs).2.1) = k4_pay2 x0 x1 xs := by
  rw [View.read_writes_eq_canon _ _ _ (scover4_C c i arg1 harg1 arg2 harg2 arg3 harg3 arg4 harg4 arg5 harg5 arg6 harg6 hc0 hc1 x0 x1 x2 x3 xs)]
  unfold kernelRun4_C
  dsimp only
  sl_unfold_words
  rw [View.canon_unit_zero (S := S128x128) hz2]
  simp only [View.readAt_eq_ld, harg1.read_unread, harg2.read_unread, harg6.read_unread, View.ld_unit_zero (S := S4000x1) hz2, View.ld_unit_zero (S := S4000x128) hz2, View.ld_unit_zero (S := S128x128) hz2]

/-- The output's buffer read back: the linear head of the UPDATED accumulator (the head's load reads what the update
    stored) with the head's weights and bias. -/
theorem oval4_C (c : Dev nD) (i : grid4.Coords) (arg1 : Memref sig .tc .vmem S4000x1 .i32) (harg1 : arg1.IsWhole) (arg2 : Memref sig .tc .vmem S4000x128 .f32) (harg2 : arg2.IsWhole) (arg3 : Memref sig .tc .vmem S128x2 .f32) (harg3 : arg3.IsWhole) (arg4 : Memref sig .tc .vmem S1x2 .f32) (harg4 : arg4.IsWhole) (arg5 : Memref sig .tc .vmem S128x2 .f32) (harg5 : arg5.IsWhole) (arg6 : Memref sig .tc .vmem S128x128 .f32) (harg6 : arg6.IsWhole) (hc0 : ¬cond4_0 i) (hc1 : cond4_1 i)
    (x0 : Vec F S4000x1 .i32) (x1 : Vec F S4000x128 .f32) (x2 : Vec F S128x2 .f32) (x3 : Vec F S1x2 .f32) (xs : Vec F S128x128 .f32) (v : View sig .tc .vmem S128x2 .f32) (f : v.ty.Contents (Elt F)) :
    v.read (Elt F) (v.writes (Elt F) f (kernelRun4_C c i arg1 harg1 arg2 harg2 arg3 harg3 arg4 harg4 arg5 harg5 arg6 harg6 hc0 hc1 x0 x1 x2 x3 xs).1) = k4_pay3 (k4_pay2 x0 x1 xs) x2 x3 := by
  rw [View.read_writes_eq_canon _ _ _ (cover4_C c i arg1 harg1 arg2 harg2 arg3 harg3 arg4 harg4 arg5 harg5 arg6 harg6 hc0 hc1 x0 x1 x2 x3 xs)]
  unfold kernelRun4_C
  dsimp only
  sl_unfold_words
  rw [View.canon_unit_zero (S := S128x2) hz2, View.readCov_unit_zero (S := S128x128) _ hz2]
  simp only [View.readAt_eq_ld, harg1.read_unread, harg2.read_unread, harg3.read_unread, harg4.read_unread, harg6.read_unread, View.ld_unit_zero (S := S4000x1) hz2, View.ld_unit_zero (S := S4000x128) hz2, View.ld_unit_zero (S := S128x128) hz2, View.ld_unit_zero (S := S128x2) hz2, View.ld_unit_zero (S := S1x2) hz2]

section Body4
variable (V : (c : Dev nD) → (b : Ref sig .tc) → Buf (Elt F) ((c : Thread nD τ).loc b))

/-! ## The invariant the launch hands the region -/

/-- The class's invariant with the accumulator split off the core's other scoped buffers: the accumulator owned at some
    contents, the rest carried unopened, the generator register at some state. -/
theorem PhiA4_eq (c : Dev nD) :
    (Pipeline.ΦA spec4 c : sProp 𝕄)
      = iprop(iprop((∃ d, owns (c : Thread nD τ) scM4 fullShare d) ∗ rest4 (F := F) c) ∗ (∃ r, prngReg c r)) := by
  unfold Pipeline.ΦA rest4
  rw [Pipeline.scopedRest_split_of_list spec4 c [cc4_scratch0] (by decide) (by decide)]
  simp only [scM4, owns_whole]; try rfl

/-! ## The accumulation, at a point -/

/-- At the first point the accumulator ends at the tile's contribution added to the zero block. -/
theorem sAt4_first (c : Dev nD) (t : Fin cfg4.N) (hz : t.val = 0) :
    sAt4 V c t.val t.isLt = k4_pay2 (iblk4 V c 0 t) (iblk4 V c 1 t) (k4_pay1 (F := F)) := by
  obtain ⟨n, hn⟩ := t
  cases n with
  | zero => rfl
  | succ n => exact absurd hz (Nat.succ_ne_zero n)

/-- At a later point, at the tile's contribution added to what the point before left. -/
theorem sAt4_pos (c : Dev nD) (t : Fin cfg4.N) (hz : t.val ≠ 0) :
    sAt4 V c t.val t.isLt = k4_pay2 (iblk4 V c 0 t) (iblk4 V c 1 t)
      (sAt4 V c (t.val - 1) (Nat.lt_of_le_of_lt (Nat.sub_le _ _) t.isLt)) := by
  obtain ⟨n, hn⟩ := t
  cases n with
  | zero => exact absurd rfl hz
  | succ n => rfl

/-! ## The input windows' staging buffers hold their blocks -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_0 (c : Dev nD) (t : Fin cfg4.N) (d) : (dat4 V c).before 0 t d = iblk4 V c 0 t :=
  before4_0_of V (dat4 V c) (A_eq4 V c 0) (after4_0 V c) t d

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_1 (c : Dev nD) (t : Fin cfg4.N) (d) : (dat4 V c).before 1 t d = iblk4 V c 1 t :=
  before4_1_of V (dat4 V c) (A_eq4 V c 1) (after4_1 V c) t d

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_2 (c : Dev nD) (t : Fin cfg4.N) (d) : (dat4 V c).before 2 t d = iblk4 V c 2 t :=
  before4_2_of V (dat4 V c) (A_eq4 V c 2) (after4_2 V c) t d

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point: the inputs' memrefs hold their blocks; the closed forms say which of the three cases the
    point is in; the invariant hands the body the accumulator at what the point before left (at anything at the first
    point) and takes it back at this point's value; where the head is not stored the output's buffer is handed back
    untouched; the other scoped buffers, the generator register and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 4 t (idleAt4_4 t hc1) (noFlush4_4 t hc1)]
    rw [sAt4_first V c t h0]
    rw [PhiS4_castSucc V c t, PhiS4_zero V c _ _ h0, PhiA4_eq]
    iintro ⟨⟨⟨HS0, HR⟩, Hg⟩, Ho, ⟨%d0, H0⟩, ⟨%d1, H1⟩, ⟨%d2, H2⟩, ⟨%d3, H3⟩, ⟨%d4, H4⟩⟩
    iapply ((kernelRun4_A c (grid4.coords t) _ _ _ _ _ _ _ _ _ _ _ _ hc0 hc1 (iblk4 V c 0 t) (iblk4 V c 1 t) (iblk4 V c 2 t) (iblk4 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 HR Hg]
    · isplitl [HS0 HR]
      · isplitl [HS0]
        · unfold owns; iexists _; isplitr
          swap; · iexact HS0
          ipureintro; exact sval4_A c _ _ _ _ _ _ _ _ _ _ _ _ _ hc0 hc1 _ _ _ _ _ _
        iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond4_0 (grid4.coords t) := fun h => h0 ((hcond4_0 t).mp h)
    rw [sAt4_pos V c t h0]
    rw [PhiS4_castSucc V c t, PhiS4_pos V c _ _ h0]
    by_cases h1 : t.val = 24
    · have hc1 : cond4_1 (grid4.coords t) := (hcond4_1 t).mpr h1
      rw [show (dat4 V c).leavesExact 4 t = owns (c : Thread nD τ) (ms4_4 t) fullShare ((dat4 V c).after 4 t) from by
        unfold Dat.leavesExact; rw [liveAt4_4 t hc1], after4_4, sAt4_pos V c t h0]
      iintro ⟨⟨⟨HS0, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ hc0 hc1 (iblk4 V c 0 t) (iblk4 V c 1 t) (iblk4 V c 2 t) (iblk4 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact sval4_C c _ _ _ _ _ _ _ _ _ _ _ _ _ hc0 hc1 _ _ _ _ _ _ _
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact oval4_C c _ _ _ _ _ _ _ _ _ _ _ _ _ hc0 hc1 _ _ _ _ _ _ _
    · have hc1 : ¬cond4_1 (grid4.coords t) := fun h => h1 ((hcond4_1 t).mp h)
      rw [Dat.leavesExact_idle (dat4 V c) 4 t (idleAt4_4 t hc1) (noFlush4_4 t hc1)]
      iintro ⟨⟨⟨HS0, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ hc0 hc1 (iblk4 V c 0 t) (iblk4 V c 1 t) (iblk4 V c 2 t) (iblk4 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact sval4_B c _ _ _ _ _ _ _ _ _ _ _ _ _ hc0 hc1 _ _ _ _ _ _ _
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Body4

end Cert.KernelIdeal.Fr

end
-- ==== Proof.KI.Run.lean ====
/-
  The run of @main: eleven items in order — six stretches of host operations and five kernel regions — each entered from the
  buffer contents the one before left; every weakly fair execution terminates, nothing faulting, with every unscoped
  buffer at the last boundary's contents. The frame claim (the argument arrays end as launched) and the result's value are
  both read off that final valuation.
-/
import proofs.«421452_j36378372997643_1_alg».proof.Proof.KI.Chain
import proofs.«421452_j36378372997643_1_alg».proof.Proof.KI.Body0
import proofs.«421452_j36378372997643_1_alg».proof.Proof.KI.Body1
import proofs.«421452_j36378372997643_1_alg».proof.Proof.KI.Body2
import proofs.«421452_j36378372997643_1_alg».proof.Proof.KI.Body3
import proofs.«421452_j36378372997643_1_alg».proof.Proof.KI.Body4

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

set_option backward.isDefEq.respectTransparency.types false in
/-- Region 0 over the thread state: entered from every unscoped buffer at `W3`, left at `W4`; its arrays split out
    of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`; its arrays split out
    of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`; its arrays split out
    of the unscoped buffers and put back at the exit contents; the generator register into the invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`; its arrays split out
    of the unscoped buffers and put back at the exit contents; the generator register into the invariant and out;
    nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W10`, left at `W11`; its arrays split out
    of the unscoped buffers and put back at the exit contents; the generator register into the invariant and out;
    nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V10 m ρ) c
    unfold Pipeline.ΦA at h
    rw [show (pdats m ρ 4 c).Φ 0 = (dat4 (V10 m ρ) c).Φ 0 from rfl]
    iintro ⟨Hp, -, Hr⟩
    iapply h
    isplitl [Hr]; · iexact Hr
    iexact Hp
  hout c := by
    have h := hout4 (V10 m ρ) c
    unfold Pipeline.ΦA at h
    rw [Pipeline.ownSems0_none, show (pdats m ρ 4 c).Φ (Fin.last _) = (dat4 (V10 m ρ) c).Φ (Fin.last cfg4.N) from rfl]
    refine h.trans ?_
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eleven segments in order. -/
abbrev segs : List (Pipeline.Seg (pcfgs (F := F)) adm (pdats m ρ) () defs₀ 𝒱₀ L lv) :=
  [ .host (hseg hostOps0 hostOps0_sub fresh0 (W0 m ρ)),
    .host (hseg hostOps0_1 hostOps0_1_sub fresh0_1 (W1 m ρ)),
    .host (hseg hostOps0_2 hostOps0_2_sub fresh0_2 (W2 m ρ)),
    .region (reg0 m ρ),
    .host (hseg hostOps1 hostOps1_sub fresh1 (W4 m ρ)),
    .region (reg1 m ρ),
    .region (reg2 m ρ),
    .host (hseg hostOps3 hostOps3_sub fresh3 (W7 m ρ)),
    .region (reg3 m ρ),
    .host (hseg hostOps4 hostOps4_sub fresh4 (W9 m ρ)),
    .region (reg4 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer holds what the last boundary's valuation `W11` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Fr

end
-- ==== Proof.KI.Args.lean ====
/-
  What the eleven items leave unchanged: a stretch of host operations changes only the buffers its operations write, a
  region only its output arrays; so each of the nine argument arrays holds its launch contents at the last boundary
  (an argument a region reads through an input window is handed back as it was entered).
-/
import proofs.«421452_j36378372997643_1_alg».proof.Proof.KI.Chain
import proofs.«421452_j36378372997643_1_alg».proof.Proof.Gen.KernelIdeal.Regions

set_option maxRecDepth 16384

noncomputable section

namespace Cert.KernelIdeal.Fr

open Cert.KernelIdeal
open Cert.KernelIdeal.Gen hiding V0 V1 V2 V3 V4 V5 V6 V7 V8 V9 V10 V11 adm segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## A host stretch keeps every buffer none of its operations writes -/
theorem W1_keep (c : Dev nD) (r : Ref sig .tc) (h : r ∉ hostOps0_W) : W1 m ρ c r = W0 m ρ c r :=
  StableHlo.after_of_writes_sub hostOps0 _ hostOps0_writes h
theorem W2_keep (c : Dev nD) (r : Ref sig .tc) (h : r ∉ hostOps0_1_W) : W2 m ρ c r = W1 m ρ c r :=
  StableHlo.after_of_writes_sub hostOps0_1 _ hostOps0_1_writes h
theorem W3_keep (c : Dev nD) (r : Ref sig .tc) (h : r ∉ hostOps0_2_W) : W3 m ρ c r = W2 m ρ c r :=
  StableHlo.after_of_writes_sub hostOps0_2 _ hostOps0_2_writes h
theorem W5_keep (c : Dev nD) (r : Ref sig .tc) (h : r ∉ hostOps1_W) : W5 m ρ c r = W4 m ρ c r :=
  StableHlo.after_of_writes_sub hostOps1 _ hostOps1_writes h
theorem W8_keep (c : Dev nD) (r : Ref sig .tc) (h : r ∉ hostOps3_W) : W8 m ρ c r = W7 m ρ c r :=
  StableHlo.after_of_writes_sub hostOps3 _ hostOps3_writes h
theorem W10_keep (c : Dev nD) (r : Ref sig .tc) (h : r ∉ hostOps4_W) : W10 m ρ c r = W9 m ρ c r :=
  StableHlo.after_of_writes_sub hostOps4 _ hostOps4_writes h

/-! ## A region hands an input window's array back as entered -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
theorem W7_in (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))
theorem W9_in (c : Dev nD) (w : Fin cfg3.W) (hw : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))
theorem W11_in (c : Dev nD) (w : Fin cfg4.W) (hw : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w hw _).trans (A_eq4 (V10 m ρ) c w))

/-! ## The arguments at the last boundary -/
theorem W11_main_arg0 (c : Dev nD) : W11 m ρ c (Proc.devRef .tc main_arg0) = m ((c : Thread nD τ).loc main_arg0) :=
  (W11_of_ne m ρ c main_arg0 (by decide)).trans <| (W10_keep m ρ c main_arg0 (by decide)).trans <| (W9_of_ne m ρ c main_arg0 (by decide)).trans <| (W8_keep m ρ c main_arg0 (by decide)).trans <| (W7_of_ne m ρ c main_arg0 (by decide)).trans <| (W6_of_ne m ρ c main_arg0 (by decide)).trans <| (W5_keep m ρ c main_arg0 (by decide)).trans <| (W4_in m ρ c 0 rfl).trans <| (W3_keep m ρ c main_arg0 (by decide)).trans <| (W2_keep m ρ c main_arg0 (by decide)).trans <| (W1_keep m ρ c main_arg0 (by decide)).trans rfl
theorem W11_main_arg1 (c : Dev nD) : W11 m ρ c (Proc.devRef .tc main_arg1) = m ((c : Thread nD τ).loc main_arg1) :=
  (W11_of_ne m ρ c main_arg1 (by decide)).trans <| (W10_keep m ρ c main_arg1 (by decide)).trans <| (W9_of_ne m ρ c main_arg1 (by decide)).trans <| (W8_keep m ρ c main_arg1 (by decide)).trans <| (W7_of_ne m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_keep m ρ c main_arg1 (by decide)).trans <| (W1_keep m ρ c main_arg1 (by decide)).trans rfl
theorem W11_main_arg2 (c : Dev nD) : W11 m ρ c (Proc.devRef .tc main_arg2) = m ((c : Thread nD τ).loc main_arg2) :=
  (W11_of_ne m ρ c main_arg2 (by decide)).trans <| (W10_keep m ρ c main_arg2 (by decide)).trans <| (W9_of_ne m ρ c main_arg2 (by decide)).trans <| (W8_keep m ρ c main_arg2 (by decide)).trans <| (W7_of_ne m ρ c main_arg2 (by decide)).trans <| (W6_of_ne m ρ c main_arg2 (by decide)).trans <| (W5_keep m ρ c main_arg2 (by decide)).trans <| (W4_of_ne m ρ c main_arg2 (by decide)).trans <| (W3_keep m ρ c main_arg2 (by decide)).trans <| (W2_keep m ρ c main_arg2 (by decide)).trans <| (W1_keep m ρ c main_arg2 (by decide)).trans rfl
theorem W11_main_arg3 (c : Dev nD) : W11 m ρ c (Proc.devRef .tc main_arg3) = m ((c : Thread nD τ).loc main_arg3) :=
  (W11_of_ne m ρ c main_arg3 (by decide)).trans <| (W10_keep m ρ c main_arg3 (by decide)).trans <| (W9_of_ne m ρ c main_arg3 (by decide)).trans <| (W8_keep m ρ c main_arg3 (by decide)).trans <| (W7_of_ne m ρ c main_arg3 (by decide)).trans <| (W6_of_ne m ρ c main_arg3 (by decide)).trans <| (W5_keep m ρ c main_arg3 (by decide)).trans <| (W4_in m ρ c 1 rfl).trans <| (W3_keep m ρ c main_arg3 (by decide)).trans <| (W2_keep m ρ c main_arg3 (by decide)).trans <| (W1_keep m ρ c main_arg3 (by decide)).trans rfl
theorem W11_main_arg4 (c : Dev nD) : W11 m ρ c (Proc.devRef .tc main_arg4) = m ((c : Thread nD τ).loc main_arg4) :=
  (W11_of_ne m ρ c main_arg4 (by decide)).trans <| (W10_keep m ρ c main_arg4 (by decide)).trans <| (W9_of_ne m ρ c main_arg4 (by decide)).trans <| (W8_keep m ρ c main_arg4 (by decide)).trans <| (W7_of_ne m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_keep m ρ c main_arg4 (by decide)).trans <| (W1_keep m ρ c main_arg4 (by decide)).trans rfl
theorem W11_main_arg5 (c : Dev nD) : W11 m ρ c (Proc.devRef .tc main_arg5) = m ((c : Thread nD τ).loc main_arg5) :=
  (W11_of_ne m ρ c main_arg5 (by decide)).trans <| (W10_keep m ρ c main_arg5 (by decide)).trans <| (W9_of_ne m ρ c main_arg5 (by decide)).trans <| (W8_keep m ρ c main_arg5 (by decide)).trans <| (W7_in m ρ c 1 rfl).trans <| (W6_of_ne m ρ c main_arg5 (by decide)).trans <| (W5_keep m ρ c main_arg5 (by decide)).trans <| (W4_of_ne m ρ c main_arg5 (by decide)).trans <| (W3_keep m ρ c main_arg5 (by decide)).trans <| (W2_keep m ρ c main_arg5 (by decide)).trans <| (W1_keep m ρ c main_arg5 (by decide)).trans rfl
theorem W11_main_arg6 (c : Dev nD) : W11 m ρ c (Proc.devRef .tc main_arg6) = m ((c : Thread nD τ).loc main_arg6) :=
  (W11_of_ne m ρ c main_arg6 (by decide)).trans <| (W10_keep m ρ c main_arg6 (by decide)).trans <| (W9_of_ne m ρ c main_arg6 (by decide)).trans <| (W8_keep m ρ c main_arg6 (by decide)).trans <| (W7_of_ne m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_keep m ρ c main_arg6 (by decide)).trans <| (W1_keep m ρ c main_arg6 (by decide)).trans rfl
theorem W11_main_arg7 (c : Dev nD) : W11 m ρ c (Proc.devRef .tc main_arg7) = m ((c : Thread nD τ).loc main_arg7) :=
  (W11_in m ρ c 2 rfl).trans <| (W10_keep m ρ c main_arg7 (by decide)).trans <| (W9_of_ne m ρ c main_arg7 (by decide)).trans <| (W8_keep m ρ c main_arg7 (by decide)).trans <| (W7_of_ne m ρ c main_arg7 (by decide)).trans <| (W6_of_ne m ρ c main_arg7 (by decide)).trans <| (W5_keep m ρ c main_arg7 (by decide)).trans <| (W4_of_ne m ρ c main_arg7 (by decide)).trans <| (W3_keep m ρ c main_arg7 (by decide)).trans <| (W2_keep m ρ c main_arg7 (by decide)).trans <| (W1_keep m ρ c main_arg7 (by decide)).trans rfl
theorem W11_main_arg8 (c : Dev nD) : W11 m ρ c (Proc.devRef .tc main_arg8) = m ((c : Thread nD τ).loc main_arg8) :=
  (W11_of_ne m ρ c main_arg8 (by decide)).trans <| (W10_keep m ρ c main_arg8 (by decide)).trans <| (W9_of_ne m ρ c main_arg8 (by decide)).trans <| (W8_keep m ρ c main_arg8 (by decide)).trans <| (W7_of_ne m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_keep m ρ c main_arg8 (by decide)).trans <| (W1_keep m ρ c main_arg8 (by decide)).trans rfl

end Cert.KernelIdeal.Fr

end
-- ==== Proof.Spec.lean ====
/-
  The three kernels as whole-array functions on the extended reals.
  * the dense projection: entry (r, d) of X·W is the sum over k of X[r, k] · W[k, d];
  * bias and rectifier: entry (r, d) is max (S[r, d] + b[0, d], 0);
  * pooling with the linear head: pooled[g, k] is the sum of H[n, k] over the nodes n whose graph id, read as a signed
    word, is g (ids outside 0..127 contribute nowhere), and the result is pooled · Wl + bl.
-/
import Idealize.ShloMosaic.PureOps.Ideal
import Idealize.ShloMosaic.Lib.ValueIdx

noncomputable section

namespace Cert.Spec

open Idealize.ShloMosaic Idealize.ShloMosaic.ValueIdx

/-- X·W for a 100000×128 matrix and a 128×128 matrix. -/
def mmF (x : FVec Ideal ⟨2, ![100000, 128]⟩ .f32) (w : FVec Ideal ⟨2, ![128, 128]⟩ .f32) :
    FVec Ideal ⟨2, ![100000, 128]⟩ .f32 :=
  fun i => ∑ k : Fin 128, x (ix2 (n0 := 100000) (n1 := 128) (i 0) k) * w (ix2 (n0 := 128) (n1 := 128) k (i 1))

/-- max (S + b, 0), the bias a row vector. -/
def brF (s : FVec Ideal ⟨2, ![100000, 128]⟩ .f32) (b : FVec Ideal ⟨2, ![1, 128]⟩ .f32) :
    FVec Ideal ⟨2, ![100000, 128]⟩ .f32 :=
  fun i => max (s i + b (ix2 (n0 := 1) (n1 := 128) 0 (i 1))) 0

/-- The sum-pooled features: row g sums the rows of H whose graph id is g. -/
def pooledF (batch : IVec ⟨2, ![100000, 1]⟩ 32) (h : FVec Ideal ⟨2, ![100000, 128]⟩ .f32) :
    FVec Ideal ⟨2, ![128, 128]⟩ .f32 :=
  fun i => ∑ n ∈ Finset.univ.filter (fun n : Fin 100000 => (batch (ix2 (n0 := 100000) (n1 := 1) n 0)).toInt = ((i 0).val : ℤ)),
    h (ix2 (n0 := 100000) (n1 := 128) n (i 1))

/-- pooled · Wl + bl. -/
def headF (p : FVec Ideal ⟨2, ![128, 128]⟩ .f32) (wl : FVec Ideal ⟨2, ![128, 2]⟩ .f32) (bl : FVec Ideal ⟨2, ![1, 2]⟩ .f32) :
    FVec Ideal ⟨2, ![128, 2]⟩ .f32 :=
  fun i => (∑ k : Fin 128, p (ix2 (n0 := 128) (n1 := 128) (i 0) k) * wl (ix2 (n0 := 128) (n1 := 2) k (i 1)))
    + bl (ix2 (n0 := 1) (n1 := 2) 0 (i 1))

end Cert.Spec

end
-- ==== Proof.KI.ValMM.lean ====
/-
  The value of the two dense projections (regions 0 and 2) at the extended reals: after its 25 row tiles the output
  array of each holds X·W, entry (r, d) the sum over k of X[r, k] · W[k, d]. At the extended reals a change of format
  is the identity and a matrix product into the zero splat is the plain sum over the contraction index, so the payload
  of a row tile, read at (p, q), is the sum over k of the tile's row p times column q of W; the tile at point t is rows
  4000·t … 4000·t + 3999 of X, the weight block is all of W, and the 25 output blocks tile the 100000 rows.
-/
import proofs.«421452_j36378372997643_1_alg».proof.Proof.KI.Dats
import proofs.«421452_j36378372997643_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

/-! ## The matrix product of a row tile, read at an index -/

/-- The row coordinate of the left operand's index is the output's row. -/
theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column coordinate is the contraction index. -/
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The row coordinate of the right operand's index is the contraction index. -/
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column coordinate is the output's column. -/
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a 4000×128 tile with a 128×128 matrix into the zero splat, at (p, q): the sum over k. -/
theorem mm_tile_apply (a : FVec Ideal S4000x128 .bf16) (b : FVec Ideal S128x128 .bf16) (p : Fin 4000) (q : Fin 128) :
    FloatOps.matmul dot_S4000x128_S128x128_S4000x128_1_0_0_1_n_n none a b (constant S4000x128 .f32 0x00000000#32) (ix2 p q)
      = ∑ k : Fin 128, a (ix2 p k) * b (ix2 k q) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The payload of region 0 at (p, q): the formats change nothing, so it is the sum over k of the tile's row p times
    column q of the weights. -/
theorem k0_pay1_apply (x0 : Vec Ideal S4000x128 .f32) (x1 : Vec Ideal S128x128 .f32) (p : Fin 4000) (q : Fin 128) :
    k0_pay1 (F := Ideal) x0 x1 (ix2 p q) = ∑ k : Fin 128, x0 (ix2 p k) * x1 (ix2 k q) := by
  unfold k0_pay1
  exact mm_tile_apply _ _ p q

/-- The payload of region 2 at (p, q): the same, past a shape cast to the same shape. -/
theorem k2_pay1_apply (x0 : Vec Ideal S4000x128 .f32) (x1 : Vec Ideal S128x128 .f32) (p : Fin 4000) (q : Fin 128) :
    k2_pay1 (F := Ideal) x0 x1 (ix2 p q) = ∑ k : Fin 128, x0 (ix2 p k) * x1 (ix2 k q) := by
  unfold k2_pay1
  refine (mm_tile_apply _ _ p q).trans ?_
  simp only [shapeCast_self]
  rfl

/-! ## Region 0: the array after the 25 points -/

section Regions
variable (V : (c : Dev nD) → (b : Ref sig .tc) → Buf (Elt Ideal) ((c : Thread nD τ).loc b))

theorem mm_hz : (![0, 0] : Fin 2 → Nat) = fun _ => 0 := funext fun a => by fin_cases a <;> rfl

/-- The printed index maps of region 0, decided over the grid: the row tile and the output move together down the rows,
    at block row t, and stay at block column 0; the weight block does not move. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT t WRITES BACK is block t of X·W: row r of the tile is row 4000·t + r of X, the weight block is W. -/
theorem flushed0_eq (c : Dev nD) (t : Fin cfg0.N) :
    (dat0 (F := Ideal) V c).flushed 2 t
      = ((cfg0.win 2).blk t).view.read (Elt Ideal) (Cert.Spec.mmF (V c main_arg0) (V c main_arg3)) := by
  show (cfg0.win 2).cut (grid0.coords t) ((dat0 (F := Ideal) V c).after 2 t) = _
  rw [after0_2]
  unfold out0_2
  rw [View.canon_unit_zero mm_hz]
  simp only [View.ld_unit_zero (S := S4000x128) mm_hz, View.ld_unit_zero (S := S128x128) mm_hz]
  obtain ⟨e0, e1, e2, e3, e4, e5⟩ := idx_facts0 t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q)
      = Cert.Spec.mmF (V c main_arg0) (V c main_arg3) (((cfg0.win 2).blk t).view.emb (ix2 p q))
  rw [k0_pay1_apply]
  unfold Cert.Spec.mmF
  refine Finset.sum_congr rfl fun k _ => ?_
  have h0 : ((cfg0.win 0).blk t).view.emb (ix2 p k)
      = ix2 (n0 := 100000) (n1 := 128) (((cfg0.win 2).blk t).view.emb (ix2 p q) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  have h1 : ((cfg0.win 1).blk t).view.emb (ix2 k q)
      = ix2 (n0 := 128) (n1 := 128) k (((cfg0.win 2).blk t).view.emb (ix2 p q) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have key : ∀ (A : FVec Ideal S100000x128 .f32) (B : FVec Ideal S128x128 .f32),
      A (((cfg0.win 0).blk t).view.emb (ix2 p k)) * B (((cfg0.win 1).blk t).view.emb (ix2 k q))
        = A (ix2 (n0 := 100000) (n1 := 128) (((cfg0.win 2).blk t).view.emb (ix2 p q) 0) k)
          * B (ix2 (n0 := 128) (n1 := 128) k (((cfg0.win 2).blk t).view.emb (ix2 p q) 1)) := by
    intro A B; rw [h0, h1]
  exact key (V c main_arg0) (V c main_arg3)

/-- An index of the array is in point t's block iff each coordinate is in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v31).slice (win0_2.rect t)).set ↔ _
  rw [View.set_slice_whole, Rect.mem_set_unit]
  exact Iff.rfl

/-- Every block row is some point's. -/
theorem idx_onto0 : ∀ q0 : Fin 25, ∃ t : Fin cfg0.N, win0_2.index t = ![q0.val, 0] :=
  (by decide +kernel : ∀ q0 : Fin 25, ∃ t : Fin grid0.N, win0_2.index t = ![q0.val, 0])

/-- THE COVER: every index of the 100000×128 array is in the block of the point of its row tile. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- THE ARRAY after region 0: X·W. -/
theorem mm0_final (c : Dev nD) :
    (dat0 (F := Ideal) V c).arrAt 2 cfg0.N = Cert.Spec.mmF (V c main_arg0) (V c main_arg3) :=
  (dat0 (F := Ideal) V c).arrAt_eq_of_cover 2 _ (fun t _ => flushed0_eq V c t) (fun i => cover0 i)

/-! ## Region 2: the array after the 25 points -/

/-- The printed index maps of region 2, decided over the grid: the row tile and the output move together down the rows,
    at block row t, and stay at block column 0; the weight block does not move. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT POINT t WRITES BACK is block t of H·W: row r of the tile is row 4000·t + r of H, the weight block is W. -/
theorem flushed2_eq (c : Dev nD) (t : Fin cfg2.N) :
    (dat2 (F := Ideal) V c).flushed 2 t
      = ((cfg2.win 2).blk t).view.read (Elt Ideal) (Cert.Spec.mmF (V c main_v45) (V c main_arg5)) := by
  show (cfg2.win 2).cut (grid2.coords t) ((dat2 (F := Ideal) V c).after 2 t) = _
  rw [after2_2]
  unfold out2_2
  rw [View.canon_unit_zero mm_hz]
  simp only [View.ld_unit_zero (S := S4000x128) mm_hz, View.ld_unit_zero (S := S128x128) mm_hz]
  obtain ⟨e0, e1, e2, e3, e4, e5⟩ := idx_facts2 t
  funext j
  obtain ⟨p, q, rfl⟩ : ∃ (p : Fin 4000) (q : Fin 128), j = ix2 p q := ⟨j 0, j 1, eq_ix2 j⟩
  show k2_pay1 (F := Ideal) (iblk2 V c 0 t) (iblk2 V c 1 t) (ix2 p q)
      = Cert.Spec.mmF (V c main_v45) (V c main_arg5) (((cfg2.win 2).blk t).view.emb (ix2 p q))
  rw [k2_pay1_apply]
  unfold Cert.Spec.mmF
  refine Finset.sum_congr rfl fun k _ => ?_
  have h0 : ((cfg2.win 0).blk t).view.emb (ix2 p k)
      = ix2 (n0 := 100000) (n1 := 128) (((cfg2.win 2).blk t).view.emb (ix2 p q) 0) k := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  have h1 : ((cfg2.win 1).blk t).view.emb (ix2 k q)
      = ix2 (n0 := 128) (n1 := 128) k (((cfg2.win 2).blk t).view.emb (ix2 p q) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  have key : ∀ (A : FVec Ideal S100000x128 .f32) (B : FVec Ideal S128x128 .f32),
      A (((cfg2.win 0).blk t).view.emb (ix2 p k)) * B (((cfg2.win 1).blk t).view.emb (ix2 k q))
        = A (ix2 (n0 := 100000) (n1 := 128) (((cfg2.win 2).blk t).view.emb (ix2 p q) 0) k)
          * B (ix2 (n0 := 128) (n1 := 128) k (((cfg2.win 2).blk t).view.emb (ix2 p q) 1)) := by
    intro A B; rw [h0, h1]
  exact key (V c main_v45) (V c main_arg5)

/-- An index of the array is in point t's block iff each coordinate is in the block's range on its axis. -/
theorem mem_blk2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v46).slice (win2_2.rect t)).set ↔ _
  rw [View.set_slice_whole, Rect.mem_set_unit]
  exact Iff.rfl

/-- Every block row is some point's. -/
theorem idx_onto2 : ∀ q0 : Fin 25, ∃ t : Fin cfg2.N, win2_2.index t = ![q0.val, 0] :=
  (by decide +kernel : ∀ q0 : Fin 25, ∃ t : Fin grid2.N, win2_2.index t = ![q0.val, 0])

/-- THE COVER: every index of the 100000×128 array is in the block of the point of its row tile. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto2 ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- THE ARRAY after region 2: H·W. -/
theorem mm2_final (c : Dev nD) :
    (dat2 (F := Ideal) V c).arrAt 2 cfg2.N = Cert.Spec.mmF (V c main_v45) (V c main_arg5) :=
  (dat2 (F := Ideal) V c).arrAt_eq_of_cover 2 _ (fun t _ => flushed2_eq V c t) (fun i => cover2 i)

end Regions

end Cert.KernelIdeal.Val

end
-- ==== Proof.KI.ValBR.lean ====
/-
  The value of the two bias-and-rectifier regions on the extended reals: the array each leaves is, index by index,
  max (S[r, d] + b[0, d], 0) of the two arrays it reads. The payload is read at an index; the block a grid point writes
  back is that point's block of the whole-array function (row 4000·t + r of the first array, the one bias row for every
  tile); the 25 tiles of 4000 rows cover the 100000 rows.
-/
import proofs.«421452_j36378372997643_1_alg».proof.Proof.KI.Dats
import proofs.«421452_j36378372997643_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

theorem hzBR : (![0, 0] : Fin 2 → Nat) = fun _ => 0 := funext fun a => by fin_cases a <;> rfl

/-! ## Region 1 -/

/-- The payload at an index: the tile's entry plus the bias row's entry of its column, rectified. -/
theorem k1_pay1_apply (x0 : Vec Ideal S4000x128 .f32) (x1 : Vec Ideal S1x128 .f32) (p : Fin 4000) (q : Fin 128) :
    k1_pay1 (F := Ideal) x0 x1 (ix2 p q) = max (x0 (ix2 p q) + x1 (ix2 (0 : Fin 1) q)) 0 := by
  unfold k1_pay1
  simp only [shapeCast_self]
  rw [maximumf_apply, addf_apply, broadcast_apply, broadcastTo_1b_ab_apply]
  show max (x0 (ix2 p q) + x1 (ix2 (0 : Fin 1) q)) (Ideal.ofBits .f32 0x00000000#32) = _
  rw [Ideal.ofBits_zero_f32]

/-- The printed index maps, decided over the grid: the row tile moves with the output's tile, the bias block never
    moves, and the output's tile index stays within the 25 tiles, on column block 0. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 24
    ∧ win1_2.index t (1 : Fin 2) = 0 :=
  (by decide +kernel : ∀ t : Fin grid1.N, _)

/-- Every row tile is some point's. -/
theorem idx_onto1 : ∀ (q0 : Fin 25), ∃ t : Fin cfg1.N, win1_2.index t = ![q0.val, 0] :=
  (by decide +kernel : ∀ (q0 : Fin 25), ∃ t : Fin grid1.N, win1_2.index t = ![q0.val, 0])

section
variable (V : (c : Dev nD) → (b : Ref sig .tc) → Buf (Elt Ideal) ((c : Thread nD τ).loc b))

/-- What point `t` writes back is its block of the whole-array function of the two arrays as the region finds them. -/
theorem br1_flushed_eq (c : Dev nD) (t : Fin cfg1.N) :
    (dat1 (F := Ideal) V c).flushed 2 t
      = ((cfg1.win 2).blk t).view.read (Elt Ideal) (Cert.Spec.brF (V c main_v43) (V c main_v44)) := by
  show (cfg1.win 2).cut (grid1.coords t) ((dat1 (F := Ideal) V c).after 2 t) = _
  rw [after1_2]
  unfold out1_2
  rw [View.canon_unit_zero hzBR]
  simp only [View.ld_unit_zero (S := S4000x128) hzBR, View.ld_unit_zero (S := S1x128) hzBR]
  obtain ⟨e0, e1, e2, e3, e4, e5⟩ := idx_facts1 t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (ix2 p q) = _
  rw [k1_pay1_apply]
  have h0 : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (n0 := 1) (n1 := 128) 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  have key : ∀ (A0 : FVec Ideal S100000x128 .f32) (A1 : FVec Ideal S1x128 .f32),
      max (A0 (((cfg1.win 0).blk t).view.emb (ix2 p q)) + A1 (((cfg1.win 1).blk t).view.emb (ix2 (0 : Fin 1) q))) 0
        = Cert.Spec.brF A0 A1 (((cfg1.win 2).blk t).view.emb (ix2 p q)) := by
    intro A0 A1
    rw [h0, h1]
    rfl
  exact key (V c main_v43) (V c main_v44)

/-- An index of the array is in point `t`'s block iff each coordinate is in the block's range on its axis. -/
theorem mem_blk1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v45).slice (win1_2.rect t)).set ↔ _
  rw [View.set_slice_whole, Rect.mem_set_unit]
  exact Iff.rfl

/-- Every index of the array is in some point's block: row `r` in that of tile `r / 4000`. -/
theorem br1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- The array the region leaves: the bias-and-rectifier function of the two arrays it reads. -/
theorem br1_final (c : Dev nD) : (dat1 (F := Ideal) V c).arrAt 2 cfg1.N = Cert.Spec.brF (V c main_v43) (V c main_v44) :=
  (dat1 (F := Ideal) V c).arrAt_eq_of_cover 2 (Cert.Spec.brF (V c main_v43) (V c main_v44)) (fun t _ => br1_flushed_eq V c t) (br1_cover)

end

/-! ## Region 3 -/

/-- The payload at an index: the tile's entry plus the bias row's entry of its column, rectified. -/
theorem k3_pay1_apply (x0 : Vec Ideal S4000x128 .f32) (x1 : Vec Ideal S1x128 .f32) (p : Fin 4000) (q : Fin 128) :
    k3_pay1 (F := Ideal) x0 x1 (ix2 p q) = max (x0 (ix2 p q) + x1 (ix2 (0 : Fin 1) q)) 0 := by
  unfold k3_pay1
  simp only [shapeCast_self]
  rw [maximumf_apply, addf_apply, broadcast_apply, broadcastTo_1b_ab_apply]
  show max (x0 (ix2 p q) + x1 (ix2 (0 : Fin 1) q)) (Ideal.ofBits .f32 0x00000000#32) = _
  rw [Ideal.ofBits_zero_f32]

/-- The printed index maps, decided over the grid: the row tile moves with the output's tile, the bias block never
    moves, and the output's tile index stays within the 25 tiles, on column block 0. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 24
    ∧ win3_2.index t (1 : Fin 2) = 0 :=
  (by decide +kernel : ∀ t : Fin grid3.N, _)

/-- Every row tile is some point's. -/
theorem idx_onto3 : ∀ (q0 : Fin 25), ∃ t : Fin cfg3.N, win3_2.index t = ![q0.val, 0] :=
  (by decide +kernel : ∀ (q0 : Fin 25), ∃ t : Fin grid3.N, win3_2.index t = ![q0.val, 0])

section
variable (V : (c : Dev nD) → (b : Ref sig .tc) → Buf (Elt Ideal) ((c : Thread nD τ).loc b))

/-- What point `t` writes back is its block of the whole-array function of the two arrays as the region finds them. -/
theorem br3_flushed_eq (c : Dev nD) (t : Fin cfg3.N) :
    (dat3 (F := Ideal) V c).flushed 2 t
      = ((cfg3.win 2).blk t).view.read (Elt Ideal) (Cert.Spec.brF (V c main_v58) (V c main_v59)) := by
  show (cfg3.win 2).cut (grid3.coords t) ((dat3 (F := Ideal) V c).after 2 t) = _
  rw [after3_2]
  unfold out3_2
  rw [View.canon_unit_zero hzBR]
  simp only [View.ld_unit_zero (S := S4000x128) hzBR, View.ld_unit_zero (S := S1x128) hzBR]
  obtain ⟨e0, e1, e2, e3, e4, e5⟩ := idx_facts3 t
  funext j
  obtain ⟨p, q, rfl⟩ : ∃ (p : Fin 4000) (q : Fin 128), j = ix2 p q := ⟨j 0, j 1, eq_ix2 j⟩
  show k3_pay1 (F := Ideal) (iblk3 V c 0 t) (iblk3 V c 1 t) (ix2 p q) = _
  rw [k3_pay1_apply]
  have h0 : ((cfg3.win 0).blk t).view.emb (ix2 p q) = ((cfg3.win 2).blk t).view.emb (ix2 p q) := by
    funext a; apply Fin.ext
    match a with
    | ⟨0, _⟩ => show win3_0.index t (0 : Fin 2) * 4000 + 1 * p.val = win3_2.index t (0 : Fin 2) * 4000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (n0 := 1) (n1 := 128) 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  have key : ∀ (A0 : FVec Ideal S100000x128 .f32) (A1 : FVec Ideal S1x128 .f32),
      max (A0 (((cfg3.win 0).blk t).view.emb (ix2 p q)) + A1 (((cfg3.win 1).blk t).view.emb (ix2 (0 : Fin 1) q))) 0
        = Cert.Spec.brF A0 A1 (((cfg3.win 2).blk t).view.emb (ix2 p q)) := by
    intro A0 A1
    rw [h0, h1]
    rfl
  exact key (V c main_v58) (V c main_v59)

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v60).slice (win3_2.rect t)).set ↔ _
  rw [View.set_slice_whole, Rect.mem_set_unit]
  exact Iff.rfl

/-- Every index of the array is in some point's block: row `r` in that of tile `r / 4000`. -/
theorem br3_cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

/-- The array the region leaves: the bias-and-rectifier function of the two arrays it reads. -/
theorem br3_final (c : Dev nD) : (dat3 (F := Ideal) V c).arrAt 2 cfg3.N = Cert.Spec.brF (V c main_v58) (V c main_v59) :=
  (dat3 (F := Ideal) V c).arrAt_eq_of_cover 2 (Cert.Spec.brF (V c main_v58) (V c main_v59)) (fun t _ => br3_flushed_eq V c t) (br3_cover)

end

end Cert.KernelIdeal.Val

end
-- ==== Proof.KI.ValPoolAcc.lean ====
/-
  The pooling kernel's three payloads read at one index, at the ideal instance, over arbitrary operand vectors.
  * the reset value is the zero matrix;
  * the accumulation step at (g, k) adds to the accumulator the sum over the tile's 4000 rows r of the feature h[r, k]
    where the row's graph id is the word g, and nothing elsewhere: the one-hot factor is the conversion of the
    zero-extended comparison bit, 1 where the id equals the lane's iota and 0 where it does not, and on the extended
    reals 1 · x = x and 0 · x = 0 for every x;
  * the head at (g, c) is the sum over k of acc[g, k] · Wl[k, c], plus the bias bl[0, c].
-/
import proofs.«421452_j36378372997643_1_alg».proof.Proof.KI.Dats
import proofs.«421452_j36378372997643_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.ShloMosaic.ValueIdx
open Idealize.ShloMosaic.Pipeline (Dat Cfg Window)
open scoped BigOperators

/-! ## The one-hot factor -/

/-- The conversion of the zero-extended equality bit of two words: 1 where they are equal, 0 where they are not. -/
theorem onehot_eq (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · rw [if_pos h]; subst h
    have e : (IntOp.cmpi .eq x x).setWidth 32 = 1#32 := by simp [IntOp.cmpi]
    rw [e]; norm_num
  · rw [if_neg h]
    have hb : (x == y) = false := beq_eq_false_iff_ne.mpr h
    have e : (IntOp.cmpi .eq x y).setWidth 32 = 0#32 := by
      show BitVec.setWidth 32 (BitVec.ofBool (x == y)) = 0#32
      rw [hb]; rfl
    rw [e]; simp

/-! ## The reset value -/

theorem k4_pay1_apply (i : S128x128.Idx) : k4_pay1 (F := Ideal) i = 0 := by
  unfold k4_pay1
  simp only [shapeCast_self]
  show Ideal.ofBits .f32 0x00000000#32 = 0
  exact Ideal.ofBits_zero_f32

/-! ## The accumulation step -/

/-- The pooling product's operand indices: the contraction runs over the rows (axis 0 of both operands), the left
    operand's lane is the result's row, the right operand's lane the result's column. -/
theorem pool_lhs_0 (i : S128x128.Idx) (q : dot_S4000x128_S4000x128_S128x128_0_0_1_1_n_n.contr.Idx) :
    (dot_S4000x128_S4000x128_S128x128_0_0_1_1_n_n.lhsIdx i q 0).val = (q ⟨0, by decide⟩).val :=
  dot_S4000x128_S4000x128_S128x128_0_0_1_1_n_n.lhsIdx_val_of_single rfl i q
theorem pool_lhs_1 (i : S128x128.Idx) (q : dot_S4000x128_S4000x128_S128x128_0_0_1_1_n_n.contr.Idx) :
    (dot_S4000x128_S4000x128_S128x128_0_0_1_1_n_n.lhsIdx i q 1).val = (i 0).val := by
  unfold DotDims.lhsIdx
  rw [dif_neg (show ¬(1 : Fin S4000x128.rank) ∈ dot_S4000x128_S4000x128_S128x128_0_0_1_1_n_n.lhsBatch by decide), dif_pos (show (1 : Fin S4000x128.rank) ∈ dot_S4000x128_S4000x128_S128x128_0_0_1_1_n_n.lhsNonContracting by decide)]
  rfl
theorem pool_rhs_0 (i : S128x128.Idx) (q : dot_S4000x128_S4000x128_S128x128_0_0_1_1_n_n.contr.Idx) :
    (dot_S4000x128_S4000x128_S128x128_0_0_1_1_n_n.rhsIdx i q 0).val = (q ⟨0, by decide⟩).val :=
  dot_S4000x128_S4000x128_S128x128_0_0_1_1_n_n.rhsIdx_val_of_single rfl i q
theorem pool_rhs_1 (i : S128x128.Idx) (q : dot_S4000x128_S4000x128_S128x128_0_0_1_1_n_n.contr.Idx) :
    (dot_S4000x128_S4000x128_S128x128_0_0_1_1_n_n.rhsIdx i q 1).val = (i 1).val := by
  unfold DotDims.rhsIdx
  rw [dif_neg (show ¬(1 : Fin S4000x128.rank) ∈ dot_S4000x128_S4000x128_S128x128_0_0_1_1_n_n.rhsBatch by decide), dif_pos (show (1 : Fin S4000x128.rank) ∈ dot_S4000x128_S4000x128_S128x128_0_0_1_1_n_n.rhsNonContracting by decide)]
  rfl

/-- THE STEP at (g, k): the accumulator there plus the tile's features h[r, k] summed over the rows r whose id is the word g. -/
theorem k4_pay2_apply (b : Vec Ideal S4000x1 .i32) (h : Vec Ideal S4000x128 .f32) (a : Vec Ideal S128x128 .f32)
    (i : S128x128.Idx) :
    k4_pay2 (F := Ideal) b h a i
      = a i + ∑ r : Fin 4000, (if b (ix2 (n0 := 4000) (n1 := 1) r 0) = BitVec.ofNat 32 (i 0).val then h (ix2 (n0 := 4000) (n1 := 128) r (i 1)) else 0) := by
  unfold k4_pay2
  simp only [shapeCast_self]
  rw [addf_apply]
  congr 1
  simp only [matmul]
  rw [Ideal.matmul_constant_zero_apply, ← Equiv.sum_comp (contrEquiv1 dot_S4000x128_S4000x128_S128x128_0_0_1_1_n_n 4000 rfl rfl).symm]
  refine Finset.sum_congr rfl fun r _ => ?_
  have hk := contrEquiv1_symm_val dot_S4000x128_S4000x128_S128x128_0_0_1_1_n_n 4000 rfl rfl r
  have el : dot_S4000x128_S4000x128_S128x128_0_0_1_1_n_n.lhsIdx i ((contrEquiv1 dot_S4000x128_S4000x128_S128x128_0_0_1_1_n_n 4000 rfl rfl).symm r)
      = ix2 (n0 := 4000) (n1 := 128) r (i 0) := funext fun ax => Fin.ext (by
    match ax with
    | ⟨0, _⟩ => exact (pool_lhs_0 _ _).trans hk
    | ⟨1, _⟩ => exact pool_lhs_1 _ _)
  have er : dot_S4000x128_S4000x128_S128x128_0_0_1_1_n_n.rhsIdx i ((contrEquiv1 dot_S4000x128_S4000x128_S128x128_0_0_1_1_n_n 4000 rfl rfl).symm r)
      = ix2 (n0 := 4000) (n1 := 128) r (i 1) := funext fun ax => Fin.ext (by
    match ax with
    | ⟨0, _⟩ => exact (pool_rhs_0 _ _).trans hk
    | ⟨1, _⟩ => exact pool_rhs_1 _ _)
  rw [el, er, truncf_apply, truncf_apply, sitofp_apply, extui_apply]
  show FloatOps.sitofp (F := Ideal) .f32 ((IntOp.cmpi .eq (broadcastTo S4000x128 b broadcasts_S4000x1_S4000x128 (ix2 (n0 := 4000) (n1 := 128) r (i 0)))
      (iota .tc S4000x128 32 [1] iota_S4000x128_d1_w32 (ix2 (n0 := 4000) (n1 := 128) r (i 0)))).setWidth 32) * h (ix2 (n0 := 4000) (n1 := 128) r (i 1)) = _
  rw [iota_single_apply, broadcastTo_apply b broadcasts_S4000x1_S4000x128 _ (ix2 (n0 := 4000) (n1 := 1) r 0) (fun ax => by
    match ax with
    | ⟨0, _⟩ => rfl
    | ⟨1, _⟩ => rfl), onehot_eq]
  show (if b (ix2 (n0 := 4000) (n1 := 1) r 0) = BitVec.ofNat 32 (i 0).val then (1 : EReal) else 0) * h (ix2 (n0 := 4000) (n1 := 128) r (i 1)) = _
  split
  · exact one_mul _
  · exact zero_mul _

/-! ## The head -/

theorem head_lhs_0 (i : S128x2.Idx) (q : dot_S128x128_S128x2_S128x2_1_0_0_1_n_n.contr.Idx) :
    (dot_S128x128_S128x2_S128x2_1_0_0_1_n_n.lhsIdx i q 0).val = (i 0).val := by
  unfold DotDims.lhsIdx
  rw [dif_neg (show ¬(0 : Fin S128x128.rank) ∈ dot_S128x128_S128x2_S128x2_1_0_0_1_n_n.lhsBatch by decide), dif_pos (show (0 : Fin S128x128.rank) ∈ dot_S128x128_S128x2_S128x2_1_0_0_1_n_n.lhsNonContracting by decide)]
  rfl
theorem head_lhs_1 (i : S128x2.Idx) (q : dot_S128x128_S128x2_S128x2_1_0_0_1_n_n.contr.Idx) :
    (dot_S128x128_S128x2_S128x2_1_0_0_1_n_n.lhsIdx i q 1).val = (q ⟨0, by decide⟩).val :=
  dot_S128x128_S128x2_S128x2_1_0_0_1_n_n.lhsIdx_val_of_single rfl i q
theorem head_rhs_0 (i : S128x2.Idx) (q : dot_S128x128_S128x2_S128x2_1_0_0_1_n_n.contr.Idx) :
    (dot_S128x128_S128x2_S128x2_1_0_0_1_n_n.rhsIdx i q 0).val = (q ⟨0, by decide⟩).val :=
  dot_S128x128_S128x2_S128x2_1_0_0_1_n_n.rhsIdx_val_of_single rfl i q
theorem head_rhs_1 (i : S128x2.Idx) (q : dot_S128x128_S128x2_S128x2_1_0_0_1_n_n.contr.Idx) :
    (dot_S128x128_S128x2_S128x2_1_0_0_1_n_n.rhsIdx i q 1).val = (i 1).val := by
  unfold DotDims.rhsIdx
  rw [dif_neg (show ¬(1 : Fin S128x2.rank) ∈ dot_S128x128_S128x2_S128x2_1_0_0_1_n_n.rhsBatch by decide), dif_pos (show (1 : Fin S128x2.rank) ∈ dot_S128x128_S128x2_S128x2_1_0_0_1_n_n.rhsNonContracting by decide)]
  rfl

/-- THE HEAD at (g, c): the row g of the accumulator times the column c of the weights, plus the bias at c. -/
theorem k4_pay3_apply (acc : Vec Ideal S128x128 .f32) (wl : Vec Ideal S128x2 .f32) (bl : Vec Ideal S1x2 .f32) (i : S128x2.Idx) :
    k4_pay3 (F := Ideal) acc wl bl i
      = (∑ k : Fin 128, acc (ix2 (n0 := 128) (n1 := 128) (i 0) k) * wl (ix2 (n0 := 128) (n1 := 2) k (i 1)))
        + bl (ix2 (n0 := 1) (n1 := 2) 0 (i 1)) := by
  unfold k4_pay3
  simp only [shapeCast_self]
  rw [addf_apply]
  congr 1
  · simp only [matmul]
    rw [Ideal.matmul_constant_zero_apply, ← Equiv.sum_comp (contrEquiv1 dot_S128x128_S128x2_S128x2_1_0_0_1_n_n 128 rfl rfl).symm]
    refine Finset.sum_congr rfl fun k _ => ?_
    have hk := contrEquiv1_symm_val dot_S128x128_S128x2_S128x2_1_0_0_1_n_n 128 rfl rfl k
    have el : dot_S128x128_S128x2_S128x2_1_0_0_1_n_n.lhsIdx i ((contrEquiv1 dot_S128x128_S128x2_S128x2_1_0_0_1_n_n 128 rfl rfl).symm k)
        = ix2 (n0 := 128) (n1 := 128) (i 0) k := funext fun ax => Fin.ext (by
      match ax with
      | ⟨0, _⟩ => exact head_lhs_0 _ _
      | ⟨1, _⟩ => exact (head_lhs_1 _ _).trans hk)
    have er : dot_S128x128_S128x2_S128x2_1_0_0_1_n_n.rhsIdx i ((contrEquiv1 dot_S128x128_S128x2_S128x2_1_0_0_1_n_n 128 rfl rfl).symm k)
        = ix2 (n0 := 128) (n1 := 2) k (i 1) := funext fun ax => Fin.ext (by
      match ax with
      | ⟨0, _⟩ => exact (head_rhs_0 _ _).trans hk
      | ⟨1, _⟩ => exact head_rhs_1 _ _)
    rw [el, er, truncf_apply, truncf_apply]
  · obtain ⟨g, c, rfl⟩ : ∃ g c, i = ix2 (n0 := 128) (n1 := 2) g c := ⟨i 0, i 1, eq_ix2 i⟩
    exact broadcastTo_1b_ab_apply bl broadcasts_S1x2_S128x2 g c

end Cert.KernelIdeal.Val

end
-- ==== Proof.KI.ValPool.lean ====
/-
  THE VALUE OF THE POOLING REGION at the ideal instance: the result array after the 25 row tiles is the linear head of
  the sum-pooled features.

  The scratch accumulator after tile n holds, at (g, k), the sum over the tiles s ≤ n and the rows r < 4000 of the
  feature h[4000 s + r, k] where the id of row 4000 s + r is the word g, and 0 elsewhere: by induction on n from the
  step read at an index (the reset is the zero matrix). After the last tile the double sum over 25 × 4000 is the sum
  over the 100000 rows; an id word equals the word g < 128 exactly when, read as a signed integer, it is g, so the sum
  is the pooled feature of the specification. The head's two other operands are whole arrays read through whole
  blocks. The output window's block is the whole result array and is written back after the last tile only, so the
  array ends holding the head of the pooled features.
-/
import proofs.«421452_j36378372997643_1_alg».proof.Proof.KI.ValPoolAcc
import Mathlib.Algebra.BigOperators.Fin
import Mathlib.Logic.Equiv.Fin.Basic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.ShloMosaic.ValueIdx
open Idealize.ShloMosaic.Pipeline (Dat Cfg Window)
open scoped BigOperators

variable (V : (c : Dev nD) → (b : Ref sig .tc) → Buf (Elt Ideal) ((c : Thread nD τ).loc b))

/-! ## Words: an id equals the word g exactly when it is g read signed -/

theorem toInt_eq_iff (b : BitVec 32) (g : ℕ) (hg : g < 128) : b.toInt = (g : ℤ) ↔ b = BitVec.ofNat 32 g := by
  have e : (BitVec.ofNat 32 g).toInt = (g : ℤ) := by
    rw [BitVec.toInt_eq_toNat_cond, BitVec.toNat_ofNat]
    have hm : g % 2 ^ 32 = g := Nat.mod_eq_of_lt (by omega)
    rw [hm]
    split
    · rfl
    · omega
  rw [← e]
  exact BitVec.toInt_inj

/-! ## The grid: 25 points, each window's block index -/

theorem N4 : cfg4.N = 25 := N_4

/-- The id and feature windows move one block of 4000 rows per point; the head's operands and the result stay at block 0. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = t.val ∧ win4_1.index t 1 = 0 :=
  (by decide +kernel : ∀ t : Fin grid4.N, win4_1.index t 0 = t.val ∧ win4_1.index t 1 = 0)
theorem index4_2 : ∀ t : Fin cfg4.N, win4_2.index t 0 = 0 ∧ win4_2.index t 1 = 0 :=
  (by decide +kernel : ∀ t : Fin grid4.N, win4_2.index t 0 = 0 ∧ win4_2.index t 1 = 0)
theorem index4_3 : ∀ t : Fin cfg4.N, win4_3.index t 0 = 0 ∧ win4_3.index t 1 = 0 :=
  (by decide +kernel : ∀ t : Fin grid4.N, win4_3.index t 0 = 0 ∧ win4_3.index t 1 = 0)
theorem index4_4 : ∀ t : Fin cfg4.N, win4_4.index t 0 = 0 ∧ win4_4.index t 1 = 0 :=
  (by decide +kernel : ∀ t : Fin grid4.N, win4_4.index t 0 = 0 ∧ win4_4.index t 1 = 0)

/-- Row r of tile t is row r + 4000 t of the array. -/
theorem row_lt (t : Fin cfg4.N) (r : Fin 4000) : r.val + 4000 * t.val < 100000 := by
  have ht : t.val < 25 := lt_of_lt_of_eq t.isLt N4
  have hr := r.isLt
  omega

/-! ## The blocks read at an index -/

/-- The id block of tile t at row r is the id of row r + 4000 t. -/
theorem iblk4_0_apply (c : Dev nD) (t : Fin cfg4.N) (r : Fin 4000) :
    (iblk4 V c 0 t : Vec Ideal S4000x1 .i32) (ix2 (n0 := 4000) (n1 := 1) r 0)
      = (V c main_v61 : Vec Ideal S100000x1 .i32) (ix2 (n0 := 100000) (n1 := 1) ⟨r.val + 4000 * t.val, row_lt t r⟩ 0) := by
  unfold iblk4
  rw [View.read_apply]
  show (V c main_v61 : Vec Ideal S100000x1 .i32) _ = (V c main_v61 : Vec Ideal S100000x1 .i32) _
  congr 1
  funext ax
  apply Fin.ext
  match ax with
  | ⟨0, _⟩ =>
    show win4_0.index t 0 * 4000 + 1 * r.val = r.val + 4000 * t.val
    rw [(index4_0 t).1]; omega
  | ⟨1, _⟩ =>
    show win4_0.index t 1 * 1 + 1 * 0 = 0
    rw [(index4_0 t).2]

/-- The feature block of tile t at (r, k) is the feature of row r + 4000 t at k. -/
theorem iblk4_1_apply (c : Dev nD) (t : Fin cfg4.N) (r : Fin 4000) (k : Fin 128) :
    (iblk4 V c 1 t : Vec Ideal S4000x128 .f32) (ix2 (n0 := 4000) (n1 := 128) r k)
      = (V c main_v60 : Vec Ideal S100000x128 .f32) (ix2 (n0 := 100000) (n1 := 128) ⟨r.val + 4000 * t.val, row_lt t r⟩ k) := by
  unfold iblk4
  rw [View.read_apply]
  show (V c main_v60 : Vec Ideal S100000x128 .f32) _ = (V c main_v60 : Vec Ideal S100000x128 .f32) _
  congr 1
  funext ax
  apply Fin.ext
  match ax with
  | ⟨0, _⟩ =>
    show win4_1.index t 0 * 4000 + 1 * r.val = r.val + 4000 * t.val
    rw [(index4_1 t).1]; omega
  | ⟨1, _⟩ =>
    show win4_1.index t 1 * 128 + 1 * k.val = k.val
    rw [(index4_1 t).2]; omega

/-- The head's weight block is the whole weight array, -/
theorem iblk4_2_eq (c : Dev nD) (t : Fin cfg4.N) :
    (iblk4 V c 2 t : Vec Ideal S128x2 .f32) = (V c main_arg7 : Vec Ideal S128x2 .f32) := by
  have hz : (fun a => win4_2.index t a * main_arg7.ty.shape.size a) = fun _ => 0 := funext fun a => by
    match a with
    | ⟨0, _⟩ => show win4_2.index t 0 * _ = 0; rw [(index4_2 t).1, Nat.zero_mul]
    | ⟨1, _⟩ => show win4_2.index t 1 * _ = 0; rw [(index4_2 t).2, Nat.zero_mul]
  exact Memref.read_access_unit_zero (Elt Ideal) main_arg7 hz (fun a => by rw [congrFun hz a]; simp) (V c main_arg7)

/-- and its bias block the whole bias array. -/
theorem iblk4_3_eq (c : Dev nD) (t : Fin cfg4.N) :
    (iblk4 V c 3 t : Vec Ideal S1x2 .f32) = (V c main_v62 : Vec Ideal S1x2 .f32) := by
  have hz : (fun a => win4_3.index t a * main_v62.ty.shape.size a) = fun _ => 0 := funext fun a => by
    match a with
    | ⟨0, _⟩ => show win4_3.index t 0 * _ = 0; rw [(index4_3 t).1, Nat.zero_mul]
    | ⟨1, _⟩ => show win4_3.index t 1 * _ = 0; rw [(index4_3 t).2, Nat.zero_mul]
  exact Memref.read_access_unit_zero (Elt Ideal) main_v62 hz (fun a => by rw [congrFun hz a]; simp) (V c main_v62)

/-! ## The accumulation -/

/-- Tile s's addend at (g, k): its features at k summed over its rows whose id is the word g (nothing past the grid). -/
def tile (c : Dev nD) (s : ℕ) (i : S128x128.Idx) : EReal :=
  if hs : s < cfg4.N then
    ∑ r : Fin 4000, (if (iblk4 V c 0 ⟨s, hs⟩ : Vec Ideal S4000x1 .i32) (ix2 (n0 := 4000) (n1 := 1) r 0) = BitVec.ofNat 32 (i 0).val
      then (iblk4 V c 1 ⟨s, hs⟩ : Vec Ideal S4000x128 .f32) (ix2 (n0 := 4000) (n1 := 128) r (i 1)) else 0)
  else 0

/-- THE ACCUMULATOR after tile n is the sum of the addends of the tiles 0 … n. -/
theorem sAt4_apply (c : Dev nD) : ∀ (n : ℕ) (hn : n < cfg4.N) (i : S128x128.Idx),
    sAt4 V c n hn i = ∑ s ∈ Finset.range (n + 1), tile V c s i
  | 0, hn, i => by
    rw [sAt4_zero, k4_pay2_apply, k4_pay1_apply, zero_add, Finset.sum_range_one]
    unfold tile
    rw [dif_pos hn]
  | n + 1, hn, i => by
    rw [sAt4_succ, k4_pay2_apply, sAt4_apply c n _ i, Finset.sum_range_succ _ (n + 1)]
    congr 1
    unfold tile
    rw [dif_pos hn]

/-- Row m's addend at (g, k), on the arrays: its feature at k where its id is the word g. -/
def rowTerm (c : Dev nD) (i : S128x128.Idx) (m : Fin 100000) : EReal :=
  if (V c main_v61 : Vec Ideal S100000x1 .i32) (ix2 (n0 := 100000) (n1 := 1) m 0) = BitVec.ofNat 32 (i 0).val
    then (V c main_v60 : Vec Ideal S100000x128 .f32) (ix2 (n0 := 100000) (n1 := 128) m (i 1)) else 0

/-- A tile's addend over the arrays: rows r + 4000 t. -/
theorem tile_eq (c : Dev nD) (t : Fin cfg4.N) (i : S128x128.Idx) :
    tile V c t.val i = ∑ r : Fin 4000, rowTerm V c i ⟨r.val + 4000 * t.val, row_lt t r⟩ := by
  unfold tile
  rw [dif_pos t.isLt]
  refine Finset.sum_congr rfl fun r _ => ?_
  rw [iblk4_0_apply V c ⟨t.val, t.isLt⟩ r, iblk4_1_apply V c ⟨t.val, t.isLt⟩ r (i 1)]
  rfl

/-- The sum of the rows' addends is the pooled feature: an id is the word g exactly when it is g read signed. -/
theorem sum_rowTerm (c : Dev nD) (i : S128x128.Idx) :
    ∑ m : Fin 100000, rowTerm V c i m = Cert.Spec.pooledF (V c main_v61) (V c main_v60) i := by
  unfold Cert.Spec.pooledF
  rw [Finset.sum_filter]
  refine Finset.sum_congr rfl fun m _ => ?_
  unfold rowTerm
  exact if_congr (toInt_eq_iff _ _ (i 0).isLt).symm rfl rfl

/-- Row r of tile t as a row of the array: the 25 × 4000 pairs are the 100000 rows. -/
def rowEquiv : Fin 25 × Fin 4000 ≃ Fin 100000 := finProdFinEquiv.trans (finCongr (by norm_num))

theorem rowEquiv_val (t : Fin 25) (r : Fin 4000) : (rowEquiv (t, r)).val = r.val + 4000 * t.val := rfl

/-- AFTER THE LAST TILE the accumulator is the pooled features: 25 tiles of 4000 rows are the 100000 rows. -/
theorem sAt4_last (c : Dev nD) (h24 : 24 < cfg4.N) :
    sAt4 V c 24 h24 = Cert.Spec.pooledF (V c main_v61) (V c main_v60) := by
  funext i
  rw [sAt4_apply]
  have e2 : ∀ t : Fin 25, tile V c t.val i = ∑ r : Fin 4000, rowTerm V c i (rowEquiv (t, r)) := fun t => by
    refine (tile_eq V c (t.cast N4.symm) i).trans ?_
    refine Finset.sum_congr rfl fun r _ => ?_
    exact congrArg (rowTerm V c i) (Fin.ext (rowEquiv_val t r).symm)
  calc ∑ s ∈ Finset.range (24 + 1), tile V c s i
      = ∑ t : Fin 25, tile V c t.val i := Finset.sum_range _
    _ = ∑ t : Fin 25, ∑ r : Fin 4000, rowTerm V c i (rowEquiv (t, r)) := Finset.sum_congr rfl fun t _ => e2 t
    _ = ∑ p : Fin 25 × Fin 4000, rowTerm V c i (rowEquiv p) :=
        (Fintype.sum_prod_type (fun p : Fin 25 × Fin 4000 => rowTerm V c i (rowEquiv p))).symm
    _ = ∑ m : Fin 100000, rowTerm V c i m := Equiv.sum_comp rowEquiv (rowTerm V c i)
    _ = Cert.Spec.pooledF (V c main_v61) (V c main_v60) i := sum_rowTerm V c i

/-! ## The head of the last accumulator, and the result array -/

/-- The specification's value of the region: the head of the pooled features. -/
abbrev poolG (c : Dev nD) : FVec Ideal ⟨2, ![128, 2]⟩ .f32 :=
  Cert.Spec.headF (Cert.Spec.pooledF (V c main_v61) (V c main_v60)) (V c main_arg7) (V c main_v62)

/-- What the last tile leaves in the output's buffer is that value. -/
theorem after4_last (c : Dev nD) (t : Fin cfg4.N) (ht : t.val = 24) :
    k4_pay3 (F := Ideal) (sAt4 V c t.val t.isLt) (iblk4 V c 2 t) (iblk4 V c 3 t) = poolG V c := by
  have e : sAt4 V c t.val t.isLt = Cert.Spec.pooledF (V c main_v61) (V c main_v60) := by
    have same : ∀ (u : ℕ) (hu : u < cfg4.N), u = 24 → sAt4 V c u hu = Cert.Spec.pooledF (V c main_v61) (V c main_v60) :=
      fun u hu e => by subst e; exact sAt4_last V c hu
    exact same _ _ ht
  rw [e, iblk4_2_eq, iblk4_3_eq]
  funext i
  rw [k4_pay3_apply]
  rfl

theorem pool_final (c : Dev nD) :
    (dat4 (F := Ideal) V c).arrAt 4 cfg4.N
      = Cert.Spec.headF (Cert.Spec.pooledF (V c main_v61) (V c main_v60)) (V c main_arg7) (V c main_v62) := by
  have h24 : 24 < cfg4.N := by rw [N4]; decide
  have hz : ∀ t : Fin cfg4.N, (fun a => win4_4.index t a * main_v63.ty.shape.size a) = fun _ => 0 := fun t => funext fun a => by
    match a with
    | ⟨0, _⟩ => show win4_4.index t 0 * _ = 0; rw [(index4_4 t).1, Nat.zero_mul]
    | ⟨1, _⟩ => show win4_4.index t 1 * _ = 0; rw [(index4_4 t).2, Nat.zero_mul]
  refine (dat4 (F := Ideal) V c).arrAt_eq_of_cover 4 (poolG V c) (fun t hf => ?_) (fun i => ⟨⟨24, h24⟩, (flush4_4 _).mpr rfl, ?_⟩)
  · -- the one write-back: the last tile's buffer, read through the whole-array block
    have ht : t.val = 24 := by
      have h1 := (flush4_4 t).mp hf
      have h2 : t.val < 25 := lt_of_lt_of_eq t.isLt N4
      omega
    show (cfg4.win 4).cut (grid4.coords t) ((dat4 (F := Ideal) V c).after 4 t) = _
    rw [after4_4, after4_last V c t ht]
    exact (Memref.read_access_unit_zero (Elt Ideal) main_v63 (hz t) (fun a => by rw [congrFun (hz t) a]; simp) (poolG V c)).symm
  · -- its block covers the array
    show i ∈ ((View.whole main_v63).slice (win4_4.rect ⟨24, h24⟩)).set
    rw [View.set_slice_whole, Rect.mem_set_unit]
    intro a
    have h0 : (i 0 : ℕ) < 128 := (i 0).isLt
    have h1 : (i 1 : ℕ) < 2 := (i 1).isLt
    match a with
    | ⟨0, _⟩ =>
      show win4_4.index ⟨24, h24⟩ 0 * 128 ≤ (i 0 : ℕ) ∧ (i 0 : ℕ) < win4_4.index ⟨24, h24⟩ 0 * 128 + 128
      rw [(index4_4 _).1]; omega
    | ⟨1, _⟩ =>
      show win4_4.index ⟨24, h24⟩ 1 * 2 ≤ (i 1 : ℕ) ∧ (i 1 : ℕ) < win4_4.index ⟨24, h24⟩ 1 * 2 + 2
      rw [(index4_4 _).2]; omega

end Cert.KernelIdeal.Val

end
-- ==== Proof.KI.ValIface.lean ====
/-
  The interface between the region values and the chain along @main: what each of the five kernel regions leaves in its
  output array, as a whole-array function of the contents V the region is entered with. Each is a statement only; the
  chain takes them as hypotheses.
  * regions 0 and 2: the output is the matrix product of the row operand with the weight operand;
  * regions 1 and 3: the output is max (S + b, 0);
  * region 4: the output is the linear head applied to the sum-pooled features.
-/
import proofs.«421452_j36378372997643_1_alg».proof.Proof.KI.Chain
import proofs.«421452_j36378372997643_1_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Contents of the TensorCore's buffers when a region is entered, per core. -/
abbrev Entry : Type := (c : Dev nD) → (b : Ref sig .tc) → Buf (Elt Ideal) ((c : Thread nD τ).loc b)

/-- Region 0 leaves x·W1 in its output. -/
def Mm0Final : Prop := ∀ (V : Entry) (c : Dev nD),
  (dat0 (F := Ideal) V c).arrAt 2 cfg0.N = Cert.Spec.mmF (V c main_arg0) (V c main_arg3)

/-- Region 1 leaves max (s + b1, 0) in its output. -/
def Br1Final : Prop := ∀ (V : Entry) (c : Dev nD),
  (dat1 (F := Ideal) V c).arrAt 2 cfg1.N = Cert.Spec.brF (V c main_v43) (V c main_v44)

/-- Region 2 leaves h1·W2 in its output. -/
def Mm2Final : Prop := ∀ (V : Entry) (c : Dev nD),
  (dat2 (F := Ideal) V c).arrAt 2 cfg2.N = Cert.Spec.mmF (V c main_v45) (V c main_arg5)

/-- Region 3 leaves max (s + b2, 0) in its output. -/
def Br3Final : Prop := ∀ (V : Entry) (c : Dev nD),
  (dat3 (F := Ideal) V c).arrAt 2 cfg3.N = Cert.Spec.brF (V c main_v58) (V c main_v59)

/-- Region 4 leaves the head of the pooled features in its output. -/
def PoolFinal : Prop := ∀ (V : Entry) (c : Dev nD),
  (dat4 (F := Ideal) V c).arrAt 4 cfg4.N
    = Cert.Spec.headF (Cert.Spec.pooledF (V c main_v61) (V c main_v60)) (V c main_arg7) (V c main_v62)

end Cert.KernelIdeal.Val

end
-- ==== Proof.KI.ValHost.lean ====
/-
  The host stretches of @main read off their folds. Each lemma is about ONE stretch of host operations over ANY entry
  contents V: the stretch's result buffer is the composed term of its operations over V's values at the buffers it reads,
  and, those values given as stages of the reference program, that term is the reference's next stage — the two programs
  apply the same host operations to equal operands. Scatters and gathers are never opened: both sides apply the same
  operation.
-/
import proofs.«421452_j36378372997643_1_alg».proof.Proof.KI.Chain
import proofs.«421452_j36378372997643_1_alg».proof.Proof.RefRead

set_option maxRecDepth 16384

noncomputable section

namespace Cert.KernelIdeal.Val

open Cert.KernelIdeal
open Cert.KernelIdeal.Gen
open Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Host
variable (V : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x2, .f32⟩ : BufTy).Contents (Elt Ideal)) (x8 : (⟨Cert.ReferenceIdeal.S2, .f32⟩ : BufTy).Contents (Elt Ideal))

theorem ops0_v3 (h1 : V (Proc.devRef .tc main_arg1) = x1) :
    StableHlo.after hostOps0 V (Proc.devRef .tc main_v3) = Cert.ReferenceIdeal.ReadP.val_main_v3 (F := Ideal) x1 := by
  after_results; rw [h1]; rfl
theorem ops0_v6 (h1 : V (Proc.devRef .tc main_arg1) = x1) :
    StableHlo.after hostOps0 V (Proc.devRef .tc main_v6) = Cert.ReferenceIdeal.ReadP.val_main_v6 (F := Ideal) x1 := by
  after_results; rw [h1]; rfl
theorem ops0_v12 (h1 : V (Proc.devRef .tc main_arg1) = x1) :
    StableHlo.after hostOps0 V (Proc.devRef .tc main_v12) = Cert.ReferenceIdeal.ReadP.val_main_v12 (F := Ideal) x1 := by
  after_results; rw [h1]; rfl
theorem ops0_v13 (h1 : V (Proc.devRef .tc main_arg1) = x1) :
    StableHlo.after hostOps0 V (Proc.devRef .tc main_v13) = Cert.ReferenceIdeal.ReadP.val_main_v13 (F := Ideal) x1 := by
  after_results; rw [h1]; rfl
theorem ops0_cst_2 :
    StableHlo.after hostOps0 V (Proc.devRef .tc main_cst_2) = Cert.ReferenceIdeal.ReadP.val_main_cst_2 (F := Ideal) := by
  after_results; rfl

/-- The degree normalisation's guard: the select of the reciprocal square root by the positivity test. -/
theorem ops0_1_v14 (h12 : V (Proc.devRef .tc main_v12) = Cert.ReferenceIdeal.ReadP.val_main_v12 (F := Ideal) x1)
    (h13 : V (Proc.devRef .tc main_v13) = Cert.ReferenceIdeal.ReadP.val_main_v13 (F := Ideal) x1)
    (hc : V (Proc.devRef .tc main_cst_2) = Cert.ReferenceIdeal.ReadP.val_main_cst_2 (F := Ideal)) :
    StableHlo.after hostOps0_1 V (Proc.devRef .tc main_v14) = Cert.ReferenceIdeal.ReadP.val_main_v14 (F := Ideal) x1 := by
  after_results
  simp only [StableHlo.TRef.ofBuf, StableHlo.TRef.toBuf, cast_eq]
  rw [h12, h13, hc]; rfl

/-- The per-edge norm as a column: the product of the two gathered guards, broadcast. -/
theorem ops0_2_v30 (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h14 : V (Proc.devRef .tc main_v14) = Cert.ReferenceIdeal.ReadP.val_main_v14 (F := Ideal) x1) :
    StableHlo.after hostOps0_2 V (Proc.devRef .tc main_v30) = Cert.ReferenceIdeal.ReadP.val_main_v38 (F := Ideal) x1 := by
  after_results_simp
  rw [h3, h6, h14]; rfl

/-- Layer one's aggregation: gather the projected rows, scale by the norm, scatter-add by the column index. -/
theorem ops1_v43 (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h30 : V (Proc.devRef .tc main_v30) = Cert.ReferenceIdeal.ReadP.val_main_v38 (F := Ideal) x1)
    (h31 : V (Proc.devRef .tc main_v31) = Cert.ReferenceIdeal.ReadP.val_main_v30 (F := Ideal) x0 x3) :
    StableHlo.after hostOps1 V (Proc.devRef .tc main_v43) = Cert.ReferenceIdeal.ReadP.val_main_v43 (F := Ideal) x0 x1 x3 := by
  after_results_simp
  rw [h3, h6, h30, h31]; rfl

/-- Layer two's aggregation. -/
theorem ops3_v58 (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h30 : V (Proc.devRef .tc main_v30) = Cert.ReferenceIdeal.ReadP.val_main_v38 (F := Ideal) x1)
    (h46 : V (Proc.devRef .tc main_v46) = Cert.ReferenceIdeal.ReadP.val_main_v48 (F := Ideal) x0 x1 x3 x4 x5) :
    StableHlo.after hostOps3 V (Proc.devRef .tc main_v58) = Cert.ReferenceIdeal.ReadP.val_main_v61 (F := Ideal) x0 x1 x3 x4 x5 := by
  after_results_simp
  rw [h3, h6, h30, h46]; rfl

/-! The kernel program reshapes a bias vector to a row, and the graph ids to a column, where the reference broadcasts
them: the same entries. -/

theorem reshape_eq_v44 : (shapeCast S1x128 x4 shapeCasts_S128_S1x128 : (⟨S1x128, .f32⟩ : BufTy).Contents (Elt Ideal))
    = Cert.ReferenceIdeal.ReadP.val_main_v44 (F := Ideal) x4 := by
  funext i
  rw [Cert.ReferenceIdeal.ReadP.val_main_v44_apply]
  exact shapeCast_apply x4 shapeCasts_S128_S1x128 i _ (by
    rw [Shape.rowMajor_val_two, Shape.rowMajor_val_one]
    have h0 : (i 0).val < 1 := (i 0).isLt
    show (i 1).val = (i 0).val * 128 + (i 1).val; omega)

theorem reshape_eq_v67 : (shapeCast S100000x1 x2 shapeCasts_S100000_S100000x1 : (⟨S100000x1, .i32⟩ : BufTy).Contents (Elt Ideal))
    = Cert.ReferenceIdeal.ReadP.val_main_v67 (F := Ideal) x2 := by
  funext i
  rw [Cert.ReferenceIdeal.ReadP.val_main_v67_apply]
  exact shapeCast_apply x2 shapeCasts_S100000_S100000x1 i _ (by
    rw [Shape.rowMajor_val_two, Shape.rowMajor_val_one]
    have h1 : (i 1).val < 1 := (i 1).isLt
    show (i 0).val = (i 0).val * 1 + (i 1).val; omega)

theorem reshape_eq_v70 : (shapeCast S1x2 x8 shapeCasts_S2_S1x2 : (⟨S1x2, .f32⟩ : BufTy).Contents (Elt Ideal))
    = Cert.ReferenceIdeal.ReadP.val_main_v70 (F := Ideal) x8 := by
  funext i
  rw [Cert.ReferenceIdeal.ReadP.val_main_v70_apply]
  exact shapeCast_apply x8 shapeCasts_S2_S1x2 i _ (by
    rw [Shape.rowMajor_val_two, Shape.rowMajor_val_one]
    have h0 : (i 0).val < 1 := (i 0).isLt
    show (i 1).val = (i 0).val * 2 + (i 1).val; omega)

theorem ops1_v44 (h4 : V (Proc.devRef .tc main_arg4) = x4) :
    StableHlo.after hostOps1 V (Proc.devRef .tc main_v44) = Cert.ReferenceIdeal.ReadP.val_main_v44 (F := Ideal) x4 := by
  after_results_simp
  rw [h4]; exact reshape_eq_v44 x4
theorem ops3_v59 (h6 : V (Proc.devRef .tc main_arg6) = x6) :
    StableHlo.after hostOps3 V (Proc.devRef .tc main_v59) = Cert.ReferenceIdeal.ReadP.val_main_v62 (F := Ideal) x6 := by
  after_results_simp
  rw [h6]; exact reshape_eq_v44 x6
theorem ops4_v61 (h2 : V (Proc.devRef .tc main_arg2) = x2) :
    StableHlo.after hostOps4 V (Proc.devRef .tc main_v61) = Cert.ReferenceIdeal.ReadP.val_main_v67 (F := Ideal) x2 := by
  after_results
  rw [h2]; exact reshape_eq_v67 x2
theorem ops4_v62 (h8 : V (Proc.devRef .tc main_arg8) = x8) :
    StableHlo.after hostOps4 V (Proc.devRef .tc main_v62) = Cert.ReferenceIdeal.ReadP.val_main_v70 (F := Ideal) x8 := by
  after_results
  rw [h8]; exact reshape_eq_v70 x8

end Host

end Cert.KernelIdeal.Val

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.KI.ValRef.lean ====
/-
  The reference's stages as the whole-array functions of the specification: its two dense projections are the matrix
  products, its two bias-and-rectifier stages are max (S + b, 0) with the bias a row, its pooling is the sum of the rows
  of each graph, and its result is the linear head of the pooled features.
-/
import proofs.«421452_j36378372997643_1_alg».proof.Proof.RefRead
import proofs.«421452_j36378372997643_1_alg».proof.Proof.Spec
import proofs.«421452_j36378372997643_1_alg».proof.Proof.LibScatterRead
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.ReadP Idealize.ShloMosaic Idealize.ShloMosaic.ValueIdx

/-- The first dense projection: entry (r, d) is the sum over k of X[r, k] · W1[k, d]. -/
theorem ref_mm1 (x0 : (⟨S100000x128, .f32⟩ : BufTy).Contents (Elt Ideal)) (x3 : (⟨S128x128, .f32⟩ : BufTy).Contents (Elt Ideal)) :
    val_main_v30 (F := Ideal) x0 x3 = Cert.Spec.mmF x0 x3 := by
  funext i
  rw [val_main_v30_apply]
  unfold Cert.Spec.mmF
  refine Finset.sum_congr rfl fun k _ => ?_
  have el : lidx_main_v30 i k = ix2 (n0 := 100000) (n1 := 128) (i 0) k := funext fun a => Fin.ext (by match a with | ⟨0, _⟩ => rfl | ⟨1, _⟩ => rfl)
  have er : ridx_main_v30 i k = ix2 (n0 := 128) (n1 := 128) k (i 1) := funext fun a => Fin.ext (by match a with | ⟨0, _⟩ => rfl | ⟨1, _⟩ => rfl)
  rw [el, er]

/-- The first bias-and-rectifier stage: the aggregated rows plus the bias row, rectified. -/
theorem ref_br1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) :
    val_main_v47 (F := Ideal) x0 x1 x3 x4 = Cert.Spec.brF (val_main_v43 (F := Ideal) x0 x1 x3) (val_main_v44 (F := Ideal) x4) := by
  funext i
  rw [val_main_v47_apply, val_main_v46_apply, val_main_v45_apply, val_main_call1_v0_apply, val_main_call1_cst_apply]
  unfold Cert.Spec.brF
  have e : idx_main_v45 i = ix2 (n0 := 1) (n1 := 128) 0 (i 1) := funext fun a => Fin.ext (by match a with | ⟨0, _⟩ => rfl | ⟨1, _⟩ => rfl)
  rw [e, Ideal.maximumf_def, Ideal.addf_def, Ideal.ofBits_def, Ideal.ofBits_zero_f32]

/-- The second dense projection, of the first layer's output. -/
theorem ref_mm2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v48 (F := Ideal) x0 x1 x3 x4 x5 = Cert.Spec.mmF (val_main_v47 (F := Ideal) x0 x1 x3 x4) x5 := by
  funext i
  rw [val_main_v48_apply]
  unfold Cert.Spec.mmF
  refine Finset.sum_congr rfl fun k _ => ?_
  have el : lidx_main_v48 i k = ix2 (n0 := 100000) (n1 := 128) (i 0) k := funext fun a => Fin.ext (by match a with | ⟨0, _⟩ => rfl | ⟨1, _⟩ => rfl)
  have er : ridx_main_v48 i k = ix2 (n0 := 128) (n1 := 128) k (i 1) := funext fun a => Fin.ext (by match a with | ⟨0, _⟩ => rfl | ⟨1, _⟩ => rfl)
  rw [el, er]

/-- The second bias-and-rectifier stage. -/
theorem ref_br2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v65 (F := Ideal) x0 x1 x3 x4 x5 x6 = Cert.Spec.brF (val_main_v61 (F := Ideal) x0 x1 x3 x4 x5) (val_main_v62 (F := Ideal) x6) := by
  funext i
  rw [val_main_v65_apply, val_main_v64_apply, val_main_v63_apply, val_main_call2_v0_apply, val_main_call2_cst_apply]
  unfold Cert.Spec.brF
  have e : idx_main_v63 i = ix2 (n0 := 1) (n1 := 128) 0 (i 1) := funext fun a => Fin.ext (by match a with | ⟨0, _⟩ => rfl | ⟨1, _⟩ => rfl)
  rw [e, Ideal.maximumf_def, Ideal.addf_def, Ideal.ofBits_def, Ideal.ofBits_zero_f32]

/-- The pooling: a scatter-add of the rows into a zero matrix by graph id leaves, at (g, k), the sum of the k-th entries
    of the rows whose graph id, read signed, is g. -/
theorem ref_pooled (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v68 (F := Ideal) x0 x1 x2 x3 x4 x5 x6
      = Cert.Spec.pooledF (val_main_v67 (F := Ideal) x2) (val_main_v65 (F := Ideal) x0 x1 x3 x4 x5 x6) := by
  unfold val_main_v68
  generalize val_main_v65 (F := Ideal) x0 x1 x3 x4 x5 x6 = h
  generalize val_main_v67 (F := Ideal) x2 = b
  funext i
  obtain ⟨g, k, rfl⟩ : ∃ (g : Fin 128) (k : Fin 128), i = ix2 g k := ⟨i 0, i 1, eq_ix2 i⟩
  refine (ScatterRead.scatterAdd_rows_apply (n := 128) (f := 128) (E := 100000)
    scatter_S128x128_S100000x1_S100000x128_1_0_0_1 rfl rfl rfl rfl (val_main_v66 (F := Ideal)) b h g k).trans ?_
  rw [val_main_v66_apply, val_main_cst_12_apply, Ideal.ofBits_def, Ideal.ofBits_zero_f32, zero_add]
  rfl

/-- The result: the linear head of the pooled features. -/
theorem ref_out (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal)) :
    val_main_v72 (F := Ideal) x0 x1 x2 x3 x4 x5 x6 x7 x8
      = Cert.Spec.headF (Cert.Spec.pooledF (val_main_v67 (F := Ideal) x2) (val_main_v65 (F := Ideal) x0 x1 x3 x4 x5 x6)) x7 (val_main_v70 (F := Ideal) x8) := by
  funext i
  rw [val_main_v72_apply, val_main_v69_apply, val_main_v71_apply, ref_pooled]
  unfold Cert.Spec.headF
  have e71 : idx_main_v71 i = ix2 (n0 := 1) (n1 := 2) 0 (i 1) := funext fun a => Fin.ext (by match a with | ⟨0, _⟩ => rfl | ⟨1, _⟩ => rfl)
  rw [e71, Ideal.addf_def]
  generalize Cert.Spec.pooledF (val_main_v67 (F := Ideal) x2) (val_main_v65 (F := Ideal) x0 x1 x3 x4 x5 x6) = P
  generalize val_main_v70 (F := Ideal) x8 = bl
  refine congrArg₂ _ (Finset.sum_congr rfl fun k _ => ?_) rfl
  have el : lidx_main_v69 i k = ix2 (n0 := 128) (n1 := 128) (i 0) k := funext fun a => Fin.ext (by match a with | ⟨0, _⟩ => rfl | ⟨1, _⟩ => rfl)
  have er : ridx_main_v69 i k = ix2 (n0 := 128) (n1 := 2) k (i 1) := funext fun a => Fin.ext (by match a with | ⟨0, _⟩ => rfl | ⟨1, _⟩ => rfl)
  rw [el, er]

end Cert.ReferenceIdeal.RefVal

end
-- ==== Proof.KI.ValChain.lean ====
/-
  THE CHAIN along @main's eleven items. The kernel program's result buffer, read at the last boundary, is the reference
  program's result term of the launch contents of the nine arguments.
  * The index chains and the per-edge norm (the first three host stretches) are functions of the edge list alone and are
    the reference's, operation for operation; every later boundary agrees with them (no later item writes them).
  * A region's output array is its value fact (taken as a hypothesis: x·W, max (s + b, 0), the head of the pooled
    features) at the region's entry contents; the reference's stage is the same whole-array function.
  * A host stretch between regions (gather the rows, scale by the norm, scatter-add) is read off its fold.
-/
import proofs.«421452_j36378372997643_1_alg».proof.Proof.KI.ValIface
import proofs.«421452_j36378372997643_1_alg».proof.Proof.KI.ValHost
import proofs.«421452_j36378372997643_1_alg».proof.Proof.KI.Args
import proofs.«421452_j36378372997643_1_alg».proof.Proof.KI.ValRef

set_option maxRecDepth 16384

noncomputable section

namespace Cert.KernelIdeal.Val

open Cert.KernelIdeal
open Cert.KernelIdeal.Gen hiding V0 V1 V2 V3 V4 V5 V6 V7 V8 V9 V10 V11 adm segs
open Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The launch contents

`m` is the launch memory; an argument array that no item changes is read at every boundary as launched. -/
section Chain
variable (m : (ℓ : Loc nD τ sig) → Buf (Elt Ideal) ℓ) (ρ : Dev nD → PrngReg) (c : Dev nD)

/-- A buffer none of the first three host stretches writes holds its launch contents when region 0 is entered. -/
theorem W3_launch (r : Ref sig .tc) (h0 : r ∉ hostOps0_W) (h1 : r ∉ hostOps0_1_W) (h2 : r ∉ hostOps0_2_W) :
    W3 m ρ c (Proc.devRef .tc r) = m ((c.tc : Thread nD τ).loc r) :=
  (W3_keep m ρ c r h2).trans <| (W2_keep m ρ c r h1).trans <| (W1_keep m ρ c r h0).trans rfl

/-! ### The index chains and the norm (items 0–2): functions of the edge list alone -/

theorem W1_v3 : W1 m ρ c (Proc.devRef .tc main_v3) = Cert.ReferenceIdeal.ReadP.val_main_v3 (F := Ideal) (m ((c.tc : Thread nD τ).loc main_arg1)) :=
  ops0_v3 (W0 m ρ c) _ rfl
theorem W1_v6 : W1 m ρ c (Proc.devRef .tc main_v6) = Cert.ReferenceIdeal.ReadP.val_main_v6 (F := Ideal) (m ((c.tc : Thread nD τ).loc main_arg1)) :=
  ops0_v6 (W0 m ρ c) _ rfl
theorem W2_v14 : W2 m ρ c (Proc.devRef .tc main_v14) = Cert.ReferenceIdeal.ReadP.val_main_v14 (F := Ideal) (m ((c.tc : Thread nD τ).loc main_arg1)) :=
  ops0_1_v14 (W1 m ρ c) _ (ops0_v12 (W0 m ρ c) _ rfl) (ops0_v13 (W0 m ρ c) _ rfl) (ops0_cst_2 (W0 m ρ c))
theorem W3_v3 : W3 m ρ c (Proc.devRef .tc main_v3) = Cert.ReferenceIdeal.ReadP.val_main_v3 (F := Ideal) (m ((c.tc : Thread nD τ).loc main_arg1)) :=
  (W3_keep m ρ c main_v3 (by decide)).trans <| (W2_keep m ρ c main_v3 (by decide)).trans (W1_v3 m ρ c)
theorem W3_v6 : W3 m ρ c (Proc.devRef .tc main_v6) = Cert.ReferenceIdeal.ReadP.val_main_v6 (F := Ideal) (m ((c.tc : Thread nD τ).loc main_arg1)) :=
  (W3_keep m ρ c main_v6 (by decide)).trans <| (W2_keep m ρ c main_v6 (by decide)).trans (W1_v6 m ρ c)
theorem W3_v30 : W3 m ρ c (Proc.devRef .tc main_v30) = Cert.ReferenceIdeal.ReadP.val_main_v38 (F := Ideal) (m ((c.tc : Thread nD τ).loc main_arg1)) :=
  ops0_2_v30 (W2 m ρ c) _ ((W2_keep m ρ c main_v3 (by decide)).trans (W1_v3 m ρ c))
    ((W2_keep m ρ c main_v6 (by decide)).trans (W1_v6 m ρ c)) (W2_v14 m ρ c)

/-- The three of them at a later boundary `W`, given that `W` agrees with `W3` on them. -/
structure Shared (W : Valuation τ sig (Elt Ideal)) : Prop where
  v3 : W (Proc.devRef .tc main_v3) = Cert.ReferenceIdeal.ReadP.val_main_v3 (F := Ideal) (m ((c.tc : Thread nD τ).loc main_arg1))
  v6 : W (Proc.devRef .tc main_v6) = Cert.ReferenceIdeal.ReadP.val_main_v6 (F := Ideal) (m ((c.tc : Thread nD τ).loc main_arg1))
  v30 : W (Proc.devRef .tc main_v30) = Cert.ReferenceIdeal.ReadP.val_main_v38 (F := Ideal) (m ((c.tc : Thread nD τ).loc main_arg1))

theorem shared4 : Shared m c (W4 m ρ c) :=
  ⟨(W4_of_ne m ρ c main_v3 (by decide)).trans (W3_v3 m ρ c), (W4_of_ne m ρ c main_v6 (by decide)).trans (W3_v6 m ρ c),
   (W4_of_ne m ρ c main_v30 (by decide)).trans (W3_v30 m ρ c)⟩
theorem shared7 : Shared m c (W7 m ρ c) :=
  have h := shared4 m ρ c
  ⟨(W7_of_ne m ρ c main_v3 (by decide)).trans <| (W6_of_ne m ρ c main_v3 (by decide)).trans <| (W5_keep m ρ c main_v3 (by decide)).trans h.v3,
   (W7_of_ne m ρ c main_v6 (by decide)).trans <| (W6_of_ne m ρ c main_v6 (by decide)).trans <| (W5_keep m ρ c main_v6 (by decide)).trans h.v6,
   (W7_of_ne m ρ c main_v30 (by decide)).trans <| (W6_of_ne m ρ c main_v30 (by decide)).trans <| (W5_keep m ρ c main_v30 (by decide)).trans h.v30⟩

/-! ### The arguments where they are read -/

theorem W4_arg4 : W4 m ρ c (Proc.devRef .tc main_arg4) = (m ((c.tc : Thread nD τ).loc main_arg4)) :=
  (W4_of_ne m ρ c main_arg4 (by decide)).trans (W3_launch m ρ c main_arg4 (by decide) (by decide) (by decide))
theorem W6_arg5 : W6 m ρ c (Proc.devRef .tc main_arg5) = (m ((c.tc : Thread nD τ).loc main_arg5)) :=
  (W6_of_ne m ρ c main_arg5 (by decide)).trans <| (W5_keep m ρ c main_arg5 (by decide)).trans <|
    (W4_of_ne m ρ c main_arg5 (by decide)).trans (W3_launch m ρ c main_arg5 (by decide) (by decide) (by decide))
theorem W7_arg6 : W7 m ρ c (Proc.devRef .tc main_arg6) = (m ((c.tc : Thread nD τ).loc main_arg6)) :=
  (W7_of_ne m ρ c main_arg6 (by decide)).trans <| (W6_of_ne m ρ c main_arg6 (by decide)).trans <| (W5_keep m ρ c main_arg6 (by decide)).trans <|
    (W4_of_ne m ρ c main_arg6 (by decide)).trans (W3_launch m ρ c main_arg6 (by decide) (by decide) (by decide))
/-- A buffer that only the last two items could change, at region 3's exit. -/
theorem W9_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : ∀ w, Pipeline.arrRef spec2 w ≠ r) (h7 : r ∉ hostOps3_W) (h8 : ∀ w, Pipeline.arrRef spec3 w ≠ r) :
    W9 m ρ c (Proc.devRef .tc r) = m ((c.tc : Thread nD τ).loc r) :=
  (W9_of_ne m ρ c r h8).trans <| (W8_keep m ρ c r h7).trans <| (W7_of_ne m ρ c r h6).trans <| (W6_of_ne m ρ c r h5).trans <|
    (W5_keep m ρ c r h4).trans <| (W4_of_ne m ρ c r h3).trans (W3_launch m ρ c r h0 h1 h2)

/-! ### The float stages: a region's output by its value fact, a host stretch's by its fold -/

variable (hmm0 : Mm0Final) (hbr1 : Br1Final) (hmm2 : Mm2Final) (hbr3 : Br3Final) (hpool : PoolFinal)
include hmm0 in
/-- Region 0: x·W1. -/
theorem W4_v31 : W4 m ρ c (Proc.devRef .tc main_v31) = Cert.ReferenceIdeal.ReadP.val_main_v30 (F := Ideal) (m ((c.tc : Thread nD τ).loc main_arg0)) (m ((c.tc : Thread nD τ).loc main_arg3)) := by
  refine (W4_arr m ρ c 2).trans ((hmm0 (V3 m ρ) c).trans ?_)
  have h0 : V3 m ρ c main_arg0 = (m ((c.tc : Thread nD τ).loc main_arg0)) := W3_launch m ρ c main_arg0 (by decide) (by decide) (by decide)
  have h3 : V3 m ρ c main_arg3 = (m ((c.tc : Thread nD τ).loc main_arg3)) := W3_launch m ρ c main_arg3 (by decide) (by decide) (by decide)
  rw [h0, h3]
  exact (Cert.ReferenceIdeal.RefVal.ref_mm1 _ _).symm

include hmm0 in
/-- Layer one aggregated (item 4). -/
theorem W5_v43 : W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg3)) :=
  have h := shared4 m ρ c
  ops1_v43 (W4 m ρ c) _ _ _ h.v3 h.v6 h.v30 (W4_v31 m ρ c hmm0)
theorem W5_v44 : W5 m ρ c (Proc.devRef .tc main_v44) = Cert.ReferenceIdeal.ReadP.val_main_v44 (F := Ideal) (m ((c.tc : Thread nD τ).loc main_arg4)) :=
  ops1_v44 (W4 m ρ c) _ (W4_arg4 m ρ c)

include hmm0 hbr1 in
/-- Region 1: bias and rectifier. -/
theorem W6_v45 : W6 m ρ c (Proc.devRef .tc main_v45) = Cert.ReferenceIdeal.ReadP.val_main_v47 (F := Ideal) (m ((c.tc : Thread nD τ).loc main_arg0)) (m ((c.tc : Thread nD τ).loc main_arg1)) (m ((c.tc : Thread nD τ).loc main_arg3)) (m ((c.tc : Thread nD τ).loc main_arg4)) := by
  refine (W6_arr m ρ c 2).trans ((hbr1 (V5 m ρ) c).trans ?_)
  have h43 : V5 m ρ c main_v43 = _ := W5_v43 m ρ c hmm0
  have h44 : V5 m ρ c main_v44 = _ := W5_v44 m ρ c
  rw [h43, h44]
  exact (Cert.ReferenceIdeal.RefVal.ref_br1 _ _ _ _).symm

include hmm0 hbr1 hmm2 in
/-- Region 2: h1·W2. -/
theorem W7_v46 : W7 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W7_arr m ρ c 2).trans ((hmm2 (V6 m ρ) c).trans ?_)
  have h45 : V6 m ρ c main_v45 = _ := W6_v45 m ρ c hmm0 hbr1
  have h5 : V6 m ρ c main_arg5 = _ := W6_arg5 m ρ c
  rw [h45, h5]
  exact (Cert.ReferenceIdeal.RefVal.ref_mm2 _ _ _ _ _).symm

include hmm0 hbr1 hmm2 in
/-- Layer two aggregated (item 7). -/
theorem W8_v58 : W8 m ρ c (Proc.devRef .tc main_v58) = Cert.ReferenceIdeal.ReadP.val_main_v61 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  have h := shared7 m ρ c
  ops3_v58 (W7 m ρ c) _ _ _ _ _ h.v3 h.v6 h.v30 (W7_v46 m ρ c hmm0 hbr1 hmm2)
theorem W8_v59 : W8 m ρ c (Proc.devRef .tc main_v59) = Cert.ReferenceIdeal.ReadP.val_main_v62 (F := Ideal) (m ((c.tc : Thread nD τ).loc main_arg6)) :=
  ops3_v59 (W7 m ρ c) _ (W7_arg6 m ρ c)

include hmm0 hbr1 hmm2 hbr3 in
/-- Region 3: bias and rectifier. -/
theorem W9_v60 : W9 m ρ c (Proc.devRef .tc main_v60)
    = Cert.ReferenceIdeal.ReadP.val_main_v65 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W9_arr m ρ c 2).trans ((hbr3 (V8 m ρ) c).trans ?_)
  have h58 : V8 m ρ c main_v58 = _ := W8_v58 m ρ c hmm0 hbr1 hmm2
  have h59 : V8 m ρ c main_v59 = _ := W8_v59 m ρ c
  rw [h58, h59]
  exact (Cert.ReferenceIdeal.RefVal.ref_br2 _ _ _ _ _ _).symm

include hmm0 hbr1 hmm2 hbr3 hpool in
/-- THE CHAIN. The kernel program's result buffer at the last boundary is the reference's result term of the launch
    contents of the nine arguments. -/
theorem kernel_result : W11 (F := Ideal) m ρ c (Proc.devRef .tc main_v63)
    = Cert.ReferenceIdeal.ReadP.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W11_arr m ρ c 4).trans ((hpool (V10 m ρ) c).trans ?_)
  have h61 : V10 m ρ c main_v61 = Cert.ReferenceIdeal.ReadP.val_main_v67 (F := Ideal) (m ((c.tc : Thread nD τ).loc main_arg2)) :=
    ops4_v61 (W9 m ρ c) _ (W9_launch m ρ c main_arg2 (by decide) (by decide) (by decide) (by decide) (by decide) (by decide) (by decide) (by decide) (by decide))
  have h62 : V10 m ρ c main_v62 = Cert.ReferenceIdeal.ReadP.val_main_v70 (F := Ideal) (m ((c.tc : Thread nD τ).loc main_arg8)) :=
    ops4_v62 (W9 m ρ c) _ (W9_launch m ρ c main_arg8 (by decide) (by decide) (by decide) (by decide) (by decide) (by decide) (by decide) (by decide) (by decide))
  have h60 : V10 m ρ c main_v60 = _ := (W10_keep m ρ c main_v60 (by decide)).trans (W9_v60 m ρ c hmm0 hbr1 hmm2 hbr3)
  have h7 : V10 m ρ c main_arg7 = (m ((c.tc : Thread nD τ).loc main_arg7)) :=
    (W10_keep m ρ c main_arg7 (by decide)).trans (W9_launch m ρ c main_arg7 (by decide) (by decide) (by decide) (by decide) (by decide) (by decide) (by decide) (by decide) (by decide))
  rw [h61, h62, h60, h7]
  exact (Cert.ReferenceIdeal.RefVal.ref_out _ _ _ _ _ _ _ _ _).symm

end Chain

end Cert.KernelIdeal.Val

end
-- ==== Proof.lean ====
/-
  The certificate of a two-layer graph convolution with sum pooling and a linear head.

  The kernel program computes, with five Pallas kernels among host operations,
      H₁ = max (A (X·W₁) + b₁, 0),   H₂ = max (A (H₁·W₂) + b₂, 0),   out = (Σ_{n : batch n = g} H₂[n, ·])·Wl + bl,
  where A is the normalised aggregation over the edges with self loops (a row gather, a product with the edge norm, a
  scatter-add by the column index), done on the host by the same operations in both programs. The dense products run as
  25 row tiles of 4000 through the matrix unit into a zero accumulator, bias and rectifier tile by tile, and the pooling as
  the product of a one-hot matrix of the graph ids with the features, accumulated over the 25 tiles in scratch.

  Over the extended reals every one of these is the reference's function: a product into a zero accumulator is the plain
  sum over the contracted axis; a change of float format is the identity; 0·x = 0 and 1·x = x for every extended real x, so
  the one-hot product adds exactly the rows whose id is g, and a sum over 25 tiles of 4000 rows is the sum over the 100000
  rows because addition there is commutative and associative. No step uses finiteness of the inputs.

  The frames: @main is eleven items — six stretches of host operations, five kernel regions; each region's body is run
  once per grid point against proof data naming what every staging buffer holds, and the items are chained through the
  buffer contents at their boundaries. The argument arrays are written by no item.
-/
import proofs.«421452_j36378372997643_1_alg».proof.Defs
import proofs.«421452_j36378372997643_1_alg».proof.Proof.Gen.Kernel
import proofs.«421452_j36378372997643_1_alg».proof.Proof.Gen.KernelIdeal
import proofs.«421452_j36378372997643_1_alg».proof.Proof.Gen.ReferenceIdeal
import proofs.«421452_j36378372997643_1_alg».proof.Proof.Gen.Pre_finite_inputs
import proofs.«421452_j36378372997643_1_alg».proof.Proof.KB.Run
import proofs.«421452_j36378372997643_1_alg».proof.Proof.KB.Args
import proofs.«421452_j36378372997643_1_alg».proof.Proof.KI.Run
import proofs.«421452_j36378372997643_1_alg».proof.Proof.KI.Args
import proofs.«421452_j36378372997643_1_alg».proof.Proof.KI.ValMM
import proofs.«421452_j36378372997643_1_alg».proof.Proof.KI.ValBR
import proofs.«421452_j36378372997643_1_alg».proof.Proof.KI.ValPool
import proofs.«421452_j36378372997643_1_alg».proof.Proof.KI.ValChain
import proofs.«421452_j36378372997643_1_alg».proof.Proof.RefRun
import proofs.«421452_j36378372997643_1_alg».proof.Proof.RefRead
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.W11_main_arg0 m ρ c),
     (h c _ (Cert.Kernel.Fr.mem_uc Cert.Kernel.main_arg1 (by decide))).trans (Cert.Kernel.Fr.W11_main_arg1 m ρ c),
     (h c _ (Cert.Kernel.Fr.mem_uc Cert.Kernel.main_arg2 (by decide))).trans (Cert.Kernel.Fr.W11_main_arg2 m ρ c),
     (h c _ (Cert.Kernel.Fr.mem_uc Cert.Kernel.main_arg3 (by decide))).trans (Cert.Kernel.Fr.W11_main_arg3 m ρ c),
     (h c _ (Cert.Kernel.Fr.mem_uc Cert.Kernel.main_arg4 (by decide))).trans (Cert.Kernel.Fr.W11_main_arg4 m ρ c),
     (h c _ (Cert.Kernel.Fr.mem_uc Cert.Kernel.main_arg5 (by decide))).trans (Cert.Kernel.Fr.W11_main_arg5 m ρ c),
     (h c _ (Cert.Kernel.Fr.mem_uc Cert.Kernel.main_arg6 (by decide))).trans (Cert.Kernel.Fr.W11_main_arg6 m ρ c),
     (h c _ (Cert.Kernel.Fr.mem_uc Cert.Kernel.main_arg7 (by decide))).trans (Cert.Kernel.Fr.W11_main_arg7 m ρ c),
     (h c _ (Cert.Kernel.Fr.mem_uc Cert.Kernel.main_arg8 (by decide))).trans (Cert.Kernel.Fr.W11_main_arg8 m ρ c)⟩)
    (Cert.Kernel.Fr.run_all (F := Bits) m ρ)

/-- The idealized program runs and leaves its arguments as launched. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.W11_main_arg0 m ρ c),
     (h c _ (Cert.KernelIdeal.Fr.mem_uc Cert.KernelIdeal.main_arg1 (by decide))).trans (Cert.KernelIdeal.Fr.W11_main_arg1 m ρ c),
     (h c _ (Cert.KernelIdeal.Fr.mem_uc Cert.KernelIdeal.main_arg2 (by decide))).trans (Cert.KernelIdeal.Fr.W11_main_arg2 m ρ c),
     (h c _ (Cert.KernelIdeal.Fr.mem_uc Cert.KernelIdeal.main_arg3 (by decide))).trans (Cert.KernelIdeal.Fr.W11_main_arg3 m ρ c),
     (h c _ (Cert.KernelIdeal.Fr.mem_uc Cert.KernelIdeal.main_arg4 (by decide))).trans (Cert.KernelIdeal.Fr.W11_main_arg4 m ρ c),
     (h c _ (Cert.KernelIdeal.Fr.mem_uc Cert.KernelIdeal.main_arg5 (by decide))).trans (Cert.KernelIdeal.Fr.W11_main_arg5 m ρ c),
     (h c _ (Cert.KernelIdeal.Fr.mem_uc Cert.KernelIdeal.main_arg6 (by decide))).trans (Cert.KernelIdeal.Fr.W11_main_arg6 m ρ c),
     (h c _ (Cert.KernelIdeal.Fr.mem_uc Cert.KernelIdeal.main_arg7 (by decide))).trans (Cert.KernelIdeal.Fr.W11_main_arg7 m ρ c),
     (h c _ (Cert.KernelIdeal.Fr.mem_uc Cert.KernelIdeal.main_arg8 (by decide))).trans (Cert.KernelIdeal.Fr.W11_main_arg8 m ρ c)⟩)
    (Cert.KernelIdeal.Fr.run_all (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs end with the same result: the kernel program's result buffer, read through its eleven items,
    is the reference's term of the arguments. -/
theorem algebraic : Cert.algebraic_KernelIdeal_ReferenceIdeal := by
  intro m ρ m' ρ' _ hagree
  refine ⟨fun c => Cert.KernelIdeal.Fr.W11 (F := Ideal) m ρ c (Proc.devRef .tc Cert.KernelIdeal.main_v63), ?_, ?_⟩
  · exact (θ_run Cert.KernelIdeal.defs _ _).mono (fun r h c =>
      ⟨h c _ (Cert.KernelIdeal.Fr.mem_uc Cert.KernelIdeal.main_v63 (by decide)),
       (h c _ (Cert.KernelIdeal.Fr.mem_uc Cert.KernelIdeal.main_arg0 (by decide))).trans (Cert.KernelIdeal.Fr.W11_main_arg0 m ρ c),
       (h c _ (Cert.KernelIdeal.Fr.mem_uc Cert.KernelIdeal.main_arg1 (by decide))).trans (Cert.KernelIdeal.Fr.W11_main_arg1 m ρ c),
       (h c _ (Cert.KernelIdeal.Fr.mem_uc Cert.KernelIdeal.main_arg2 (by decide))).trans (Cert.KernelIdeal.Fr.W11_main_arg2 m ρ c),
       (h c _ (Cert.KernelIdeal.Fr.mem_uc Cert.KernelIdeal.main_arg3 (by decide))).trans (Cert.KernelIdeal.Fr.W11_main_arg3 m ρ c),
       (h c _ (Cert.KernelIdeal.Fr.mem_uc Cert.KernelIdeal.main_arg4 (by decide))).trans (Cert.KernelIdeal.Fr.W11_main_arg4 m ρ c),
       (h c _ (Cert.KernelIdeal.Fr.mem_uc Cert.KernelIdeal.main_arg5 (by decide))).trans (Cert.KernelIdeal.Fr.W11_main_arg5 m ρ c),
       (h c _ (Cert.KernelIdeal.Fr.mem_uc Cert.KernelIdeal.main_arg6 (by decide))).trans (Cert.KernelIdeal.Fr.W11_main_arg6 m ρ c),
       (h c _ (Cert.KernelIdeal.Fr.mem_uc Cert.KernelIdeal.main_arg7 (by decide))).trans (Cert.KernelIdeal.Fr.W11_main_arg7 m ρ c),
       (h c _ (Cert.KernelIdeal.Fr.mem_uc Cert.KernelIdeal.main_arg8 (by decide))).trans (Cert.KernelIdeal.Fr.W11_main_arg8 m ρ c)⟩)
      (Cert.KernelIdeal.Fr.run_all (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v72_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact (Cert.KernelIdeal.Val.kernel_result m ρ c
      (fun V c => Cert.KernelIdeal.Val.mm0_final V c) (fun V c => Cert.KernelIdeal.Val.br1_final V c)
      (fun V c => Cert.KernelIdeal.Val.mm2_final V c) (fun V c => Cert.KernelIdeal.Val.br3_final V c)
      (fun V c => Cert.KernelIdeal.Val.pool_final V c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
